-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S128x128 : Shape := ⟨2, ![128, 128]⟩
abbrev S1x128 : Shape := ⟨2, ![1, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S16x2048x128 .f32) (main_arg1 : IVec S16x2048x2048 32) (main_arg2 : FVec F S128x128 .f32) (main_arg3 : FVec F S1x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S16x2048x128 : Shape := ⟨3, ![16, 2048, 128]⟩
abbrev S16x2048x2048 : Shape := ⟨3, ![16, 2048, 2048]⟩
abbrev S128x128 : Shape := ⟨2, ![128, 128]⟩
abbrev S1x128 : Shape := ⟨2, ![1, 128]⟩
abbrev S1x2048x128 : Shape := ⟨3, ![1, 2048, 128]⟩
abbrev S1x2048x512 : Shape := ⟨3, ![1, 2048, 512]⟩
abbrev S2048x1 : Shape := ⟨2, ![2048, 1]⟩
abbrev S2048x128 : Shape := ⟨2, ![2048, 128]⟩
abbrev S1x512x128 : Shape := ⟨3, ![1, 512, 128]⟩
abbrev S512x128 : Shape := ⟨2, ![512, 128]⟩
abbrev S2048x512 : Shape := ⟨2, ![2048, 512]⟩
abbrev S2048 : Shape := ⟨1, ![2048]⟩

abbrev nBuf : Space → Nat
  | .hbm => 5
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .i32⟩
  | .hbm, ⟨2, _⟩ => ⟨S128x128, .f32⟩
  | .hbm, ⟨3, _⟩ => ⟨S1x128, .f32⟩
  | .hbm, ⟨4, _⟩ => ⟨S16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x512, .i32⟩
  | .local _ .vmem, ⟨3, _⟩ => ⟨S1x2048x512, .i32⟩
  | .local _ .vmem, ⟨4, _⟩ => ⟨S128x128, .f32⟩
  | .local _ .vmem, ⟨5, _⟩ => ⟨S1x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x1, .f32⟩
  | .local _ .vmem, ⟨9, _⟩ => ⟨S2048x1, .f32⟩
  | .local _ .vmem, ⟨10, _⟩ => ⟨S2048x128, .f32⟩
  | .local _ .vmem, ⟨11, _⟩ => ⟨S2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v4 : BitVec 32 := Scalar.muli arg1 c512_i32
  v4
def k0_off1 (i : grid0.Coords) : Fin 3 → Nat :=
  let c0_2 : Index := 0#32
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_3 : Index := 0#32
  ![0, v6.toNat, 0]
def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_25 : BitVec 32 := 0#32
  let v52 : BitVec 1 := Scalar.cmpi .ne v51 c0_i32_25
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S1x512x128 : 0 < S1x512x128.numel
  shapeCasts_S1x512x128_S512x128 : S1x512x128.ShapeCasts S512x128
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x128 : S2048x1.Broadcasts S2048x128
  inb_S1x128_S1x128_0_0 : ∀ a, (![0, 0] : Fin 2 → Nat) a + S1x128.size a ≤ S1x128.size a
  h_S1x128 : 0 < S1x128.numel
  broadcasts_S1x128_S2048x128 : S1x128.Broadcasts S2048x128
  shapeCasts_S2048x128_S1x2048x128 : S2048x128.ShapeCasts S1x2048x128
  dot_S2048x128_S128x128_S2048x128_1_0_0_1_n_n_wf : DotDims.WF S2048x128 S128x128 S2048x128 [1] [0] [0] [1] [] []
  dot_S2048x128_S512x128_S2048x512_1_1_0_0_n_n_wf : DotDims.WF S2048x128 S512x128 S2048x512 [1] [1] [0] [0] [] []
  dot_S2048x512_S512x128_S2048x128_1_0_0_1_n_n_wf : DotDims.WF S2048x512 S512x128 S2048x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x2048x2048.size a
  hwx0_1 : ∀ i : grid0.Coords, EltTy.bits .i32 = 32 ∨ (Rect.block (s := S16x2048x2048) S1x2048x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S16x2048x128.size a
  hwx0_4 : ∀ i : grid0.Coords, EltTy.bits .f32 = 32 ∨ (Rect.block (s := S16x2048x128) S1x2048x128.size (cc0_transform_4 i) (hinb0_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S128x128 : Shape := ⟨2, ![128, 128]⟩
abbrev S1x128 : Shape := ⟨2, ![1, 128]⟩
abbrev S_ : Shape := ⟨0, ![]⟩
abbrev S16x2048 : Shape := ⟨2, ![16, 2048]⟩
abbrev S16x2048x1 : Shape := ⟨3, ![16, 2048, 1]⟩
abbrev S1x1x128 : Shape := ⟨3, ![1, 1, 128]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .i32⟩
  | .hbm, ⟨2, _⟩ => ⟨S128x128, .f32⟩
  | .hbm, ⟨3, _⟩ => ⟨S1x128, .f32⟩
  | .hbm, ⟨4, _⟩ => ⟨S16x2048x128, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .i1⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .i32⟩
  | .hbm, ⟨14, _⟩ => ⟨S16x2048x2048, .i32⟩
  | .hbm, ⟨15, _⟩ => ⟨S16x2048x2048, .i1⟩
  | .hbm, ⟨16, _⟩ => ⟨S_, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x2048x128, .f32⟩
  | .hbm, ⟨35, _⟩ => ⟨S1x1x128, .f32⟩
  | .hbm, ⟨36, _⟩ => ⟨S16x2048x128, .f32⟩
  | .hbm, ⟨37, _⟩ => ⟨S16x2048x128, .f32⟩
  | .hbm, ⟨38, _⟩ => ⟨S_, .f32⟩
  | .hbm, ⟨39, _⟩ => ⟨S16x2048x128, .f32⟩
  | .hbm, ⟨40, _⟩ => ⟨S16x2048x128, .i1⟩
  | .hbm, ⟨41, _⟩ => ⟨S_, .f32⟩
  | .hbm, ⟨42, _⟩ => ⟨S16x2048x128, .f32⟩
  | .hbm, ⟨43, _⟩ => ⟨S16x2048x128, .i1⟩
  | .hbm, ⟨44, _⟩ => ⟨S_, .f32⟩
  | .hbm, ⟨45, _⟩ => ⟨S_, .f32⟩
  | .hbm, ⟨46, _⟩ => ⟨S16x2048x128, .f32⟩
  | .hbm, ⟨47, _⟩ => ⟨S16x2048x128, .f32⟩
  | .hbm, ⟨48, _⟩ => ⟨S16x2048x128, .f32⟩
  | .hbm, ⟨49, _⟩ => ⟨S_, .f32⟩
  | .hbm, ⟨50, _⟩ => ⟨S16x2048x128, .f32⟩
  | .hbm, ⟨51, _⟩ => ⟨S16x2048x128, .f32⟩
  | .hbm, ⟨52, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call2_cst : Ref sig .tc := ⟨.hbm, 38, rfl⟩
abbrev main_call2_v0 : Ref sig .tc := ⟨.hbm, 39, rfl⟩
abbrev main_call2_v1 : Ref sig .tc := ⟨.hbm, 40, rfl⟩
abbrev main_call2_cst_0 : Ref sig .tc := ⟨.hbm, 41, rfl⟩
abbrev main_call2_v2 : Ref sig .tc := ⟨.hbm, 42, rfl⟩
abbrev main_call2_v3 : Ref sig .tc := ⟨.hbm, 43, rfl⟩
abbrev main_call2_cst_1 : Ref sig .tc := ⟨.hbm, 44, rfl⟩
abbrev main_call2_call0_v0 : Ref sig .tc := ⟨.hbm, 45, rfl⟩
abbrev main_call2_call0_v1 : Ref sig .tc := ⟨.hbm, 46, rfl⟩
abbrev main_call2_v4 : Ref sig .tc := ⟨.hbm, 47, rfl⟩
abbrev main_call2_v5 : Ref sig .tc := ⟨.hbm, 48, rfl⟩
abbrev main_call2_cst_2 : Ref sig .tc := ⟨.hbm, 49, rfl⟩
abbrev main_call2_v6 : Ref sig .tc := ⟨.hbm, 50, rfl⟩
abbrev main_call2_v7 : Ref sig .tc := ⟨.hbm, 51, rfl⟩
abbrev main_v25 : Ref sig .tc := ⟨.hbm, 52, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S1x128_S1x1x128_1_2 : S1x128.BroadcastsInDim S1x1x128 (![1, 2] : Fin 2 → Fin S1x1x128.rank)
  bcast_S1x1x128_S16x2048x128_0_1_2 : S1x1x128.BroadcastsInDim S16x2048x128 (![0, 1, 2] : Fin 3 → Fin S16x2048x128.rank)
  bcast_S_S16x2048x128 : S_.BroadcastsInDim S16x2048x128 (![] : Fin 0 → Fin S16x2048x128.rank)
  dot_S16x2048x128_S128x128_S16x2048x128_2_0_01_1_n_n_wf : DotDims.WF S16x2048x128 S128x128 S16x2048x128 [2] [0] [0, 1] [1] [] []
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S128x128_S16x2048x128_2_0_01_1_n_n : DotDims S16x2048x128 S128x128 S16x2048x128 where
  lhsContracting := [2]
  rhsContracting := [0]
  lhsNonContracting := [0, 1]
  rhsNonContracting := [1]
  lhsBatch := []
  rhsBatch := []
  wf := dot_S16x2048x128_S128x128_S16x2048x128_2_0_01_1_n_n_wf
def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.KPieces.lean ====
/-
  What each control case of the kernel body leaves in the carried scratch buffers and in the output block, as the
  body's pure payload terms of what the case read: the staged blocks, and what the point before left in the scratch.
  The key tile is the 512 rows of the staged feature block that start at row 512 · (the point's second coordinate).
-/
import proofs.«409511_j249108103458_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The key tile a point reads: rows `512 · i₁ …` of the staged feature block, all 128 features. -/
abbrev keyTile (i : grid0.Coords) (x0 : Vec F S1x2048x128 .f32) : Vec F S1x512x128 .f32 :=
  View.ld x0 (Rect.unit (s := S1x2048x128) (k0_off1 i) S1x512x128.size (k0_off1_inb i))

variable (c : Dev nD) (i : grid0.Coords)
  (arg2 : Memref sig .tc .vmem S1x2048x128 .f32) (harg2 : arg2.IsWhole) (arg3 : Memref sig .tc .vmem S1x2048x512 .i32) (harg3 : arg3.IsWhole)
  (arg4 : Memref sig .tc .vmem S128x128 .f32) (harg4 : arg4.IsWhole) (arg5 : Memref sig .tc .vmem S1x128 .f32) (harg5 : arg5.IsWhole)
  (arg6 : Memref sig .tc .vmem S1x2048x128 .f32) (harg6 : arg6.IsWhole) (arg7 : Memref sig .tc .vmem S2048x1 .f32) (harg7 : arg7.IsWhole)
  (arg8 : Memref sig .tc .vmem S2048x1 .f32) (harg8 : arg8.IsWhole) (arg9 : Memref sig .tc .vmem S2048x128 .f32) (harg9 : arg9.IsWhole)
  (arg10 : Memref sig .tc .vmem S2048x128 .f32) (harg10 : arg10.IsWhole)
  (x0 : Vec F S1x2048x128 .f32) (x1 : Vec F S1x2048x512 .i32) (x2 : Vec F S128x128 .f32) (x3 : Vec F S1x128 .f32)
  (xs0 xs1 : Vec F S2048x1 .f32) (xs2 xs3 : Vec F S2048x128 .f32)

/-! ## The first point of a batch: projection stored, the three accumulators reset, then one update -/

/-- The projected features `x W` of the batch, stored once. -/

theorem piece_A_3 (hc0 : cond0_0 i) (hc1 : ¬cond0_1 i) :
    sout0_A_3 c i arg2 harg2 arg3 harg3 arg4 harg4 arg5 harg5 arg6 harg6 arg7 harg7 arg8 harg8 arg9 harg9 arg10 harg10 hc0 hc1 x0 x1 x2 x3 = k0_pay5 x0 x2 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

theorem piece_A_0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 = k0_pay3 (k0_pay11 (k0_pay5 x0 x2) (keyTile i x0) x1 k0_pay6) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

theorem piece_A_1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 = k0_pay1 (k0_pay15 (k0_pay5 x0 x2) (keyTile i x0) x1 k0_pay6 k0_pay7) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

theorem piece_A_2 (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3 = k0_pay2 (k0_pay9 (keyTile i x0)) (k0_pay12 (k0_pay5 x0 x2) (keyTile i x0) x1 k0_pay6) (k0_pay14 (k0_pay5 x0 x2) (keyTile i x0) x1 k0_pay6) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x128) hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

/-! ## A middle point: one update over what the point before left -/

theorem piece_B_0 (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 xs0 xs1 xs2 xs3 = k0_pay3 (k0_pay11 xs3 (keyTile i x0) x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

theorem piece_B_1 (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay15 xs3 (keyTile i x0) x1 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

theorem piece_B_2 (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 (keyTile i x0)) (k0_pay12 xs3 (keyTile i x0) x1 xs0) (k0_pay14 xs3 (keyTile i x0) x1 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

/-! ## The last point of a batch: one update, then the normalised result stored into the output block -/

theorem piece_C_0 (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 xs0 xs1 xs2 xs3 = k0_pay3 (k0_pay11 xs3 (keyTile i x0) x1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

theorem piece_C_1 (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay15 xs3 (keyTile i x0) x1 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

theorem piece_C_2 (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 (keyTile i x0)) (k0_pay12 xs3 (keyTile i x0) x1 xs0) (k0_pay14 xs3 (keyTile i x0) x1 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

theorem piece_C_4 (hc0 : ¬cond0_0 i) (hc1 : cond0_1 i) :
    out0_C_4 c i arg2 harg2 arg3 harg3 arg4 harg4 arg5 harg5 arg6 harg6 arg7 harg7 arg8 harg8 arg9 harg9 arg10 harg10 hc0 hc1 x0 x1 x2 x3 xs0 xs1 xs2 xs3 = k0_pay4 (k0_pay2 (k0_pay9 (keyTile i x0)) (k0_pay12 xs3 (keyTile i x0) x1 xs0) (k0_pay14 xs3 (keyTile i x0) x1 xs0) xs2) (k0_pay1 (k0_pay15 xs3 (keyTile i x0) x1 xs0 xs1)) x3 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2048x1) hz2, View.ld_unit_zero (S := S2048x128) hz2, View.ld_unit_zero (S := S128x128) hz2, View.ld_unit_zero (S := S1x128) hz2, View.ld_unit_zero (S := S1x2048x512) hz3, View.ld_unit_zero (S := S1x2048x128) hz3, View.readCov_unit_zero (S := S2048x1) _ hz2, View.readCov_unit_zero (S := S2048x128) _ hz2]
  all_goals rfl

end Cert.KernelIdeal.KV

end
-- ==== Proof.Spec.lean ====
/-
  The graph-attention layer as ONE function of its four argument arrays, index by index on the extended reals,
  and the running (tile by tile) form of a softmax-weighted sum.

  For a batch `b` and a query row `n` the layer computes
    proj[b,n,g]  = Σ_f x[b,n,f] · W[f,g]
    sim[b,n,j]   = Σ_g proj[b,n,g] · x[b,j,g]
    score[b,n,j] = max(sim, slope · sim)  where adj[b,n,j] > 0,   the finite fill value elsewhere
    wgt[b,n,j]   = exp(score[b,n,j] − max_j score[b,n,j])
    pre[b,n,f]   = Σ_j (wgt[b,n,j] / Σ_j wgt[b,n,j]) · x[b,j,f] + bias[0,f]
    out[b,n,f]   = pre if pre > 0, else exp(pre) − 1.
  `max(s, slope · s)` is the leaky rectifier for a slope strictly between 0 and 1.

  The running form splits the key axis into tiles. It carries a maximum `m`, a denominator `l` and a numerator
  `a`; a tile with scores `e` and values `v` updates them to
    m' = max(m, max e),   l' = exp(m − m') · l + Σ exp(e − m'),   a' = exp(m − m') · a + Σ exp(e − m') · v,
  from m = −∞, l = 0, a = 0. After the last tile a / l is the softmax-weighted sum of the values.
-/
import Idealize.ShloMosaic.PureOps.Ideal
import Idealize.ShloMosaic.Lib.ValueIdx

noncomputable section

open scoped BigOperators

namespace Cert.Spec

open Idealize.ShloMosaic Idealize.ShloMosaic.ValueIdx

/-- The shapes of the four arguments: features, adjacency, projection matrix, bias row. -/
abbrev SX : Shape := ⟨3, ![16, 2048, 128]⟩
abbrev SA : Shape := ⟨3, ![16, 2048, 2048]⟩
abbrev SW : Shape := ⟨2, ![128, 128]⟩
abbrev SB : Shape := ⟨2, ![1, 128]⟩

/-! ## The running form, for one row: scalars over tiles indexed by a finite type -/

section Running

variable {ι : Type} [Fintype ι]

/-- The running maximum after a tile of scores. -/
def stepMax (mprev : EReal) (e : ι → EReal) : EReal :=
  max mprev ((Finset.univ : Finset ι).fold max ⊥ e)

/-- The running denominator after a tile: the old one rescaled to the new maximum, plus the tile's weights. -/
def stepDen (mprev lprev : EReal) (e : ι → EReal) : EReal :=
  Ideal.exp (mprev - stepMax mprev e) * lprev + ∑ j : ι, Ideal.exp (e j - stepMax mprev e)

/-- The running numerator after a tile: the old one rescaled, plus the tile's weighted values. -/
def stepNum (mprev aprev : EReal) (e v : ι → EReal) : EReal :=
  Ideal.exp (mprev - stepMax mprev e) * aprev + ∑ j : ι, Ideal.exp (e j - stepMax mprev e) * v j

/-- The maximum after tiles `0 … k`, from `−∞`. -/
def onMax (e : ℕ → ι → EReal) : ℕ → EReal
  | 0 => stepMax ⊥ (e 0)
  | k + 1 => stepMax (onMax e k) (e (k + 1))

/-- The denominator after tiles `0 … k`, from `0`. -/
def onDen (e : ℕ → ι → EReal) : ℕ → EReal
  | 0 => stepDen ⊥ 0 (e 0)
  | k + 1 => stepDen (onMax e k) (onDen e k) (e (k + 1))

/-- The numerator after tiles `0 … k`, from `0`. -/
def onNum (e v : ℕ → ι → EReal) : ℕ → EReal
  | 0 => stepNum ⊥ 0 (e 0) (v 0)
  | k + 1 => stepNum (onMax e k) (onNum e v k) (e (k + 1)) (v (k + 1))

end Running

/-! ## The layer -/

/-- The leaky rectifier's slope and the mask's fill value, as the two programs spell them. -/
def slope : EReal := Ideal.ofBits .f32 0x3DCCCCCD#32
def fill : EReal := Ideal.ofBits .f32 0xD9FFCB9E#32

/-- Column `j'` of key tile `k` (tiles of 512 columns; reduced mod 2048 so that it is total in `k`). -/
def tileCol (k : ℕ) (j' : Fin 512) : Fin 2048 := ⟨(512 * k + j'.val) % 2048, Nat.mod_lt _ (by norm_num)⟩

section Layer

variable (x : SX.Idx → EReal) (adj : SA.Idx → BitVec 32) (W : SW.Idx → EReal) (bias : SB.Idx → EReal)

/-- The projected features `x W`. -/
def proj (b : Fin 16) (n : Fin 2048) (g : Fin 128) : EReal := ∑ f : Fin 128, x (ix3 b n f) * W (ix2 f g)

/-- The similarity `(x W) xᵀ`. -/
def sim (b : Fin 16) (n j : Fin 2048) : EReal := ∑ g : Fin 128, proj x W b n g * x (ix3 b j g)

/-- The leaky rectifier of a similarity, as a maximum. -/
def leaky (s : EReal) : EReal := max s (slope * s)

/-- The masked score. -/
def score (b : Fin 16) (n j : Fin 2048) : EReal :=
  Scalar.select (IntOp.cmpi .sgt (adj (ix3 b n j)) 0#32) (leaky (sim x W b n j)) fill

/-- A row's largest score. -/
def rowMax (b : Fin 16) (n : Fin 2048) : EReal :=
  (Finset.univ : Finset (Fin 2048)).fold max ⊥ (fun j => score x adj W b n j)

/-- The unnormalised attention weight. -/
def wgt (b : Fin 16) (n j : Fin 2048) : EReal := Ideal.exp (score x adj W b n j - rowMax x adj W b n)

/-- A row's normaliser. -/
def den (b : Fin 16) (n : Fin 2048) : EReal := ∑ j : Fin 2048, wgt x adj W b n j

/-- The attended features plus the bias. -/
def pre (b : Fin 16) (n : Fin 2048) (f : Fin 128) : EReal :=
  (∑ j : Fin 2048, Ideal.div (wgt x adj W b n j) (den x adj W b n) * x (ix3 b j f)) + bias (ix2 0 f)

/-- The exponential linear unit. -/
def elu (h : EReal) : EReal := Scalar.select (Ideal.cmp .ogt h 0) h (Ideal.exp h - 1)

/-- The layer's result, index by index. -/
def G : SX.Idx → EReal := fun i => elu (pre x adj W bias (i 0) (i 1) (i 2))

/-- The scores of row `(b, n)` tile by tile, and the values of feature `f` tile by tile. -/
def tileScore (b : Fin 16) (n : Fin 2048) : ℕ → Fin 512 → EReal := fun k j' => score x adj W b n (tileCol k j')
def tileVal (b : Fin 16) (f : Fin 128) : ℕ → Fin 512 → EReal := fun k j' => x (ix3 b (tileCol k j') f)

end Layer

end Cert.Spec

end
-- ==== Proof.KBlock.lean ====
/-
  The kernel body's arithmetic at one grid point, over the blocks it has staged: the score of query row `n`
  against key row `j'` of the staged key tile.
-/
import proofs.«409511_j249108103458_3_alg».proof.Proof.Spec
import proofs.«409511_j249108103458_3_alg».proof.Proof.Gen.KernelIdeal.Skeleton

noncomputable section

open scoped BigOperators

namespace Cert.KernelIdeal.KV

open Cert.KernelIdeal Cert.KernelIdeal.Gen Cert.Spec Idealize.ShloMosaic Idealize.ShloMosaic.ValueIdx

/-- The similarity of query row `n` (a row of the projected features `xw`) and key row `j'` of the staged key tile `xt`. -/
def blkSim (xw : Vec Ideal S2048x128 .f32) (xt : Vec Ideal S1x512x128 .f32) (n : Fin 2048) (j' : Fin 512) : EReal :=
  ∑ g : Fin 128, xw (ix2 n g) * xt (ix3 0 j' g)

/-- The masked score over the staged adjacency block `ab`. -/
def blkScore (xw : Vec Ideal S2048x128 .f32) (xt : Vec Ideal S1x512x128 .f32) (ab : Vec Ideal S1x2048x512 .i32)
    (n : Fin 2048) (j' : Fin 512) : EReal :=
  Scalar.select (IntOp.cmpi .sgt (ab (ix3 0 n j')) 0#32) (leaky (blkSim xw xt n j')) fill

end Cert.KernelIdeal.KV

end
-- ==== Proof.Consts.lean ====
/-
  The float constants the two programs spell, as the extended reals their bit patterns denote.
-/
import Idealize.ShloMosaic.PureOps.Ideal
import proofs.«409511_j249108103458_3_alg».proof.Proof.Spec

noncomputable section

open scoped BigOperators

namespace Cert.Spec

open Idealize.ShloMosaic

/-- The word for negative infinity denotes the bottom of the extended reals. -/
theorem ofBits_neg_inf : Ideal.ofBits .f32 0xFF800000#32 = (⊥ : EReal) := by
  simp [Ideal.ofBits, Ideal.ieee]

/-- The zero word denotes 0 and the word of `1.0` denotes 1. -/
theorem ofBits_zero : Ideal.ofBits .f32 0x00000000#32 = (0 : EReal) := by
  simp [Ideal.ofBits, Ideal.ieee]
theorem ofBits_one : Ideal.ofBits .f32 0x3F800000#32 = (1 : EReal) := by
  simp [Ideal.ofBits, Ideal.ieee, -EReal.coe_mul]; norm_num

/-- The slope word has sign 0, exponent 123 and fraction 5033165: it denotes 13421773 / 2^27. -/
theorem slope_eq : slope = ((13421773 / 134217728 : ℝ) : EReal) := by
  unfold slope
  simp [Ideal.ofBits, Ideal.ieee, -EReal.coe_mul]; norm_num

/-- The fill word has sign 1, exponent 179 and fraction 8375198: it denotes −16763806 · 2^29. -/
theorem fill_eq : fill = ((-8999999815811072 : ℝ) : EReal) := by
  unfold fill
  simp [Ideal.ofBits, Ideal.ieee, -EReal.coe_mul]; norm_num

/-- The leaky rectifier's slope is a real strictly between 0 and 1. -/
theorem slope_real : ∃ r : ℝ, slope = (r : EReal) ∧ 0 < r ∧ r < 1 :=
  ⟨13421773 / 134217728, slope_eq, by norm_num, by norm_num⟩

/-- The mask's fill value is a (finite) real. -/
theorem fill_real : ∃ r : ℝ, fill = (r : EReal) :=
  ⟨-8999999815811072, fill_eq⟩

end Cert.Spec

end
-- ==== Proof.KPay.lean ====
/-
  The kernel body's payloads (the pure values its stores write), read at an index on the extended reals.
-/
import proofs.«409511_j249108103458_3_alg».proof.Proof.KBlock
import proofs.«409511_j249108103458_3_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KV

open Cert.KernelIdeal Cert.KernelIdeal.Gen Cert.Spec Idealize.ShloMosaic Idealize.ShloMosaic.ValueIdx

/-! ## The three products of the matrix unit, read at an index

Each contracts one axis; the contraction index is re-indexed to its one coordinate. -/

/-- The operand indices of the projection `x W`: row `i 0` of the left factor, column `i 1` of the right one. -/
theorem lhs_proj_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_proj_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_proj_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_proj_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The projection product at `(n, g)`. -/
theorem matmul_proj_apply (a : FVec Ideal S2048x128 .bf16) (b : FVec Ideal S128x128 .bf16) (n : Fin 2048) (g : Fin 128) :
    matmul dot_S2048x128_S128x128_S2048x128_1_0_0_1_n_n none a b (constant (F := Ideal) S2048x128 .f32 0x00000000#32) (ix2 n g)
      = ∑ f : Fin 128, a (ix2 n f) * b (ix2 f g) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 n g) ((contrEquiv1 dot_S2048x128_S128x128_S2048x128_1_0_0_1_n_n 128 rfl rfl).symm k) = ix2 n k := funext fun c => Fin.ext (by
    match c with
    | ⟨0, _⟩ => exact lhs_proj_0 _ _
    | ⟨1, _⟩ => exact (lhs_proj_1 _ _).trans hk)
  have er : dot_S2048x128_S128x128_S2048x128_1_0_0_1_n_n.rhsIdx (ix2 n g) ((contrEquiv1 dot_S2048x128_S128x128_S2048x128_1_0_0_1_n_n 128 rfl rfl).symm k) = ix2 k g := funext fun c => Fin.ext (by
    match c with
    | ⟨0, _⟩ => exact (rhs_proj_0 _ _).trans hk
    | ⟨1, _⟩ => exact rhs_proj_1 _ _)
  rw [el, er]

/-- The operand indices of the similarity `(x W) xᵀ`: row `i 0` of the left factor, row `i 1` of the right one. -/
theorem lhs_sim_0 (i : S2048x512.Idx) (q : dot_S2048x128_S512x128_S2048x512_1_1_0_0_n_n.contr.Idx) :
    (dot_S2048x128_S512x128_S2048x512_1_1_0_0_n_n.lhsIdx i q 0).val = (i 0).val := by
  unfold DotDims.lhsIdx
  rw [dif_neg (show ¬(0 : Fin S2048x128.rank) ∈ dot_S2048x128_S512x128_S2048x512_1_1_0_0_n_n.lhsBatch by decide), dif_pos (show (0 : Fin S2048x128.rank) ∈ dot_S2048x128_S512x128_S2048x512_1_1_0_0_n_n.lhsNonContracting by decide)]
  rfl
theorem lhs_sim_1 (i : S2048x512.Idx) (q : dot_S2048x128_S512x128_S2048x512_1_1_0_0_n_n.contr.Idx) :
    (dot_S2048x128_S512x128_S2048x512_1_1_0_0_n_n.lhsIdx i q 1).val = (q ⟨0, by decide⟩).val :=
  dot_S2048x128_S512x128_S2048x512_1_1_0_0_n_n.lhsIdx_val_of_single rfl i q
theorem rhs_sim_0 (i : S2048x512.Idx) (q : dot_S2048x128_S512x128_S2048x512_1_1_0_0_n_n.contr.Idx) :
    (dot_S2048x128_S512x128_S2048x512_1_1_0_0_n_n.rhsIdx i q 0).val = (i 1).val := by
  unfold DotDims.rhsIdx
  rw [dif_neg (show ¬(0 : Fin S512x128.rank) ∈ dot_S2048x128_S512x128_S2048x512_1_1_0_0_n_n.rhsBatch by decide), dif_pos (show (0 : Fin S512x128.rank) ∈ dot_S2048x128_S512x128_S2048x512_1_1_0_0_n_n.rhsNonContracting by decide)]
  rfl
theorem rhs_sim_1 (i : S2048x512.Idx) (q : dot_S2048x128_S512x128_S2048x512_1_1_0_0_n_n.contr.Idx) :
    (dot_S2048x128_S512x128_S2048x512_1_1_0_0_n_n.rhsIdx i q 1).val = (q ⟨0, by decide⟩).val :=
  dot_S2048x128_S512x128_S2048x512_1_1_0_0_n_n.rhsIdx_val_of_single rfl i q

/-- The similarity product at `(n, j')`. -/
theorem matmul_sim_apply (a : FVec Ideal S2048x128 .bf16) (b : FVec Ideal S512x128 .bf16) (n : Fin 2048) (j' : Fin 512) :
    matmul dot_S2048x128_S512x128_S2048x512_1_1_0_0_n_n none a b (constant (F := Ideal) S2048x512 .f32 0x00000000#32) (ix2 n j')
      = ∑ g : Fin 128, a (ix2 n g) * b (ix2 j' g) := by
  simp only [matmul]
  rw [Ideal.matmul_constant_zero_apply, ← Equiv.sum_comp (contrEquiv1 dot_S2048x128_S512x128_S2048x512_1_1_0_0_n_n 128 rfl rfl).symm]
  refine Finset.sum_congr rfl fun k _ => ?_
  have hk := contrEquiv1_symm_val dot_S2048x128_S512x128_S2048x512_1_1_0_0_n_n 128 rfl rfl k
  have el : dot_S2048x128_S512x128_S2048x512_1_1_0_0_n_n.lhsIdx (ix2 n j') ((contrEquiv1 dot_S2048x128_S512x128_S2048x512_1_1_0_0_n_n 128 rfl rfl).symm k) = ix2 n k := funext fun c => Fin.ext (by
    match c with
    | ⟨0, _⟩ => exact lhs_sim_0 _ _
    | ⟨1, _⟩ => exact (lhs_sim_1 _ _).trans hk)
  have er : dot_S2048x128_S512x128_S2048x512_1_1_0_0_n_n.rhsIdx (ix2 n j') ((contrEquiv1 dot_S2048x128_S512x128_S2048x512_1_1_0_0_n_n 128 rfl rfl).symm k) = ix2 j' k := funext fun c => Fin.ext (by
    match c with
    | ⟨0, _⟩ => exact rhs_sim_0 _ _
    | ⟨1, _⟩ => exact (rhs_sim_1 _ _).trans hk)
  rw [el, er]

/-- The operand indices of the weighted sum of the values: row `i 0` of the weights, column `i 1` of the values. -/
theorem lhs_val_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs_val_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhs_val_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhs_val_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The weighted sum of the values at `(n, f)`. -/
theorem matmul_val_apply (a : FVec Ideal S2048x512 .bf16) (b : FVec Ideal S512x128 .bf16) (n : Fin 2048) (f : Fin 128) :
    matmul dot_S2048x512_S512x128_S2048x128_1_0_0_1_n_n none a b (constant (F := Ideal) S2048x128 .f32 0x00000000#32) (ix2 n f)
      = ∑ j' : Fin 512, a (ix2 n j') * b (ix2 j' f) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 n f) ((contrEquiv1 dot_S2048x512_S512x128_S2048x128_1_0_0_1_n_n 512 rfl rfl).symm k) = ix2 n k := funext fun c => Fin.ext (by
    match c with
    | ⟨0, _⟩ => exact lhs_val_0 _ _
    | ⟨1, _⟩ => exact (lhs_val_1 _ _).trans hk)
  have er : dot_S2048x512_S512x128_S2048x128_1_0_0_1_n_n.rhsIdx (ix2 n f) ((contrEquiv1 dot_S2048x512_S512x128_S2048x128_1_0_0_1_n_n 512 rfl rfl).symm k) = ix2 k f := funext fun c => Fin.ext (by
    match c with
    | ⟨0, _⟩ => exact (rhs_val_0 _ _).trans hk
    | ⟨1, _⟩ => exact rhs_val_1 _ _)
  rw [el, er]

/-- The projection stored at a batch's first point: a row of `x W`. -/
theorem pay5_apply (x0 : Vec Ideal S1x2048x128 .f32) (w : Vec Ideal S128x128 .f32) (n : Fin 2048) (g : Fin 128) :
    k0_pay5 (F := Ideal) x0 w (ix2 n g) = ∑ f : Fin 128, x0 (ix3 0 n f) * w (ix2 f g) := by
  unfold k0_pay5
  rw [shapeCast_self]
  refine (matmul_proj_apply _ _ n g).trans ?_
  refine Finset.sum_congr rfl fun f _ => ?_
  rw [truncf_apply, truncf_apply, shapeCast_1ab_ab_apply]

/-- The three resets: the maximum to `−∞`, the denominator and the numerator to 0. -/
theorem pay6_apply (y : S2048x1.Idx) : k0_pay6 (F := Ideal) y = (⊥ : EReal) := by
  unfold k0_pay6
  rw [shapeCast_self]
  exact ofBits_neg_inf
theorem pay7_apply (y : S2048x1.Idx) : k0_pay7 (F := Ideal) y = (0 : EReal) := by
  unfold k0_pay7
  rw [shapeCast_self]
  exact ofBits_zero
theorem pay8_apply (y : S2048x128.Idx) : k0_pay8 (F := Ideal) y = (0 : EReal) := by
  unfold k0_pay8
  rw [shapeCast_self]
  exact ofBits_zero

/-- The stores of the denominator and of the maximum write their operand unchanged. -/
theorem pay1_eq (v : FVec Ideal S2048x1 .f32) : k0_pay1 (F := Ideal) v = v := by
  unfold k0_pay1
  exact shapeCast_self v _
theorem pay3_eq (v : FVec Ideal S2048x1 .f32) : k0_pay3 (F := Ideal) v = v := by
  unfold k0_pay3
  exact shapeCast_self v _

/-- The key tile as the matrix unit takes it: the staged rows. -/
theorem pay9_apply (xt : Vec Ideal S1x512x128 .f32) (j' : Fin 512) (g : Fin 128) :
    k0_pay9 (F := Ideal) xt (ix2 j' g) = xt (ix3 0 j' g) := by
  unfold k0_pay9
  exact shapeCast_1ab_ab_apply xt _ j' g

/-! ## A column `[a, 1]`: the lane reductions keep their dropped axis as a unit axis -/

/-- A vector `[a]` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `n` of a `2048 × 512` tile with the lane `k` put back. -/
theorem lift_row (n : Fin 2048) (k : Fin 512) : reduces_S2048x512_S2048.lift (ix1 n) k = ix2 n k :=
  funext fun c => Fin.ext (by
    match c with
    | ⟨0, _⟩ => rfl
    | ⟨1, _⟩ => rfl)

/-- The lane maximum kept as a column: at `(n, 0)` the fold of `max` from `−∞` over row `n`. -/
theorem rowMax_apply (v : FVec Ideal S2048x512 .f32) (n : Fin 2048) :
    shapeCast S2048x1 (multiReduction (F := Ideal) .maximumf [1] S2048 v 0xFF800000#32 reduces_S2048x512_S2048 (.inl rfl) rfl)
        shapeCasts_S2048_S2048x1 (ix2 n 0)
      = (Finset.univ : Finset (Fin 512)).fold max ⊥ (fun j' => v (ix2 n j')) := by
  refine (shapeCast_a_a1_apply _ _ n 0).trans ?_
  refine (Ideal.multiReduction_maximumf_single v _ reduces_S2048x512_S2048 (.inl rfl) rfl (ix1 n)).trans ?_
  show (Finset.univ : Finset (Fin 512)).fold max (Ideal.ofBits .f32 0xFF800000#32) _ = _
  rw [ofBits_neg_inf]
  exact congrArg (fun e => (Finset.univ : Finset (Fin 512)).fold max ⊥ e) (funext fun k => congrArg v (lift_row n k))

/-- The lane sum kept as a column: at `(n, 0)` the sum over row `n`. -/
theorem rowSum_apply (v : FVec Ideal S2048x512 .f32) (n : Fin 2048) :
    shapeCast S2048x1 (multiReduction (F := Ideal) .add [1] S2048 v 0x00000000#32 reduces_S2048x512_S2048 (.inl rfl) rfl)
        shapeCasts_S2048_S2048x1 (ix2 n 0)
      = ∑ j' : Fin 512, v (ix2 n j') := by
  refine (shapeCast_a_a1_apply _ _ n 0).trans ?_
  refine (Ideal.multiReduction_add_single v _ reduces_S2048x512_S2048 (.inl rfl) rfl (ix1 n)).trans ?_
  exact Finset.sum_congr rfl fun k _ => congrArg v (lift_row n k)

/-- The masked scores of the tile. -/
theorem pay10_apply (xw : Vec Ideal S2048x128 .f32) (xt : Vec Ideal S1x512x128 .f32) (ab : Vec Ideal S1x2048x512 .i32)
    (n : Fin 2048) (j' : Fin 512) :
    k0_pay10 (F := Ideal) xw xt ab (ix2 n j') = blkScore xw xt ab n j' := by
  have hsim : (matmul dot_S2048x128_S512x128_S2048x512_1_1_0_0_n_n none (truncf .bf16 xw bitsLt_bf16_f32) (k0_pay9 xt)
      (constant (F := Ideal) S2048x512 .f32 0x00000000#32) : FVec Ideal S2048x512 .f32) (ix2 n j') = blkSim xw xt n j' :=
    (matmul_sim_apply _ _ n j').trans (Finset.sum_congr rfl fun g _ => by rw [truncf_apply, pay9_apply])
  have hab : (shapeCast S2048x512 ab shapeCasts_S1x2048x512_S2048x512 : IVec S2048x512 32) (ix2 n j') = ab (ix3 0 n j') :=
    shapeCast_1ab_ab_apply ab _ n j'
  unfold k0_pay10 blkScore leaky
  simp only [select_apply, maximumf_apply, mulf_apply, broadcast_apply]
  rw [hsim]
  show Scalar.select (IntOp.cmpi .sgt ((shapeCast S2048x512 ab shapeCasts_S1x2048x512_S2048x512 : IVec S2048x512 32) (ix2 n j')) 0#32) _ _ = _
  rw [hab]
  rfl

/-- The new running maximum of row `n`. -/
theorem pay11_apply (xw : Vec Ideal S2048x128 .f32) (xt : Vec Ideal S1x512x128 .f32) (ab : Vec Ideal S1x2048x512 .i32)
    (mp : Vec Ideal S2048x1 .f32) (n : Fin 2048) :
    k0_pay11 (F := Ideal) xw xt ab mp (ix2 n 0) = stepMax (mp (ix2 n 0)) (blkScore xw xt ab n) := by
  unfold k0_pay11 stepMax
  show max (mp (ix2 n 0)) _ = _
  refine congrArg (max (mp (ix2 n 0))) ?_
  refine (rowMax_apply _ n).trans ?_
  exact congrArg (fun e => (Finset.univ : Finset (Fin 512)).fold max ⊥ e) (funext fun j' => pay10_apply xw xt ab n j')

/-- The rescaling factor of row `n`: the exponential of the old maximum less the new one. -/
theorem pay12_apply (xw : Vec Ideal S2048x128 .f32) (xt : Vec Ideal S1x512x128 .f32) (ab : Vec Ideal S1x2048x512 .i32)
    (mp : Vec Ideal S2048x1 .f32) (n : Fin 2048) :
    k0_pay12 (F := Ideal) xw xt ab mp (ix2 n 0)
      = Ideal.exp (mp (ix2 n 0) - stepMax (mp (ix2 n 0)) (blkScore xw xt ab n)) := by
  unfold k0_pay12
  show Ideal.exp (mp (ix2 n 0) - k0_pay11 (F := Ideal) xw xt ab mp (ix2 n 0)) = _
  rw [pay11_apply]

/-- The weights of the tile: the exponential of each score less the new maximum of its row. -/
theorem pay13_apply (xw : Vec Ideal S2048x128 .f32) (xt : Vec Ideal S1x512x128 .f32) (ab : Vec Ideal S1x2048x512 .i32)
    (mp : Vec Ideal S2048x1 .f32) (n : Fin 2048) (j' : Fin 512) :
    k0_pay13 (F := Ideal) xw xt ab mp (ix2 n j')
      = Ideal.exp (blkScore xw xt ab n j' - stepMax (mp (ix2 n 0)) (blkScore xw xt ab n)) := by
  unfold k0_pay13
  show Ideal.exp (k0_pay10 (F := Ideal) xw xt ab (ix2 n j')
    - broadcastTo S2048x512 (k0_pay11 (F := Ideal) xw xt ab mp) broadcasts_S2048x1_S2048x512 (ix2 n j')) = _
  rw [pay10_apply, broadcastTo_a1_ab_apply, pay11_apply]

/-- The weights as the matrix unit takes them: unchanged. -/
theorem pay14_apply (xw : Vec Ideal S2048x128 .f32) (xt : Vec Ideal S1x512x128 .f32) (ab : Vec Ideal S1x2048x512 .i32)
    (mp : Vec Ideal S2048x1 .f32) (n : Fin 2048) (j' : Fin 512) :
    k0_pay14 (F := Ideal) xw xt ab mp (ix2 n j')
      = Ideal.exp (blkScore xw xt ab n j' - stepMax (mp (ix2 n 0)) (blkScore xw xt ab n)) := by
  unfold k0_pay14
  exact pay13_apply xw xt ab mp n j'

/-- The new running denominator of row `n`. -/
theorem pay15_apply (xw : Vec Ideal S2048x128 .f32) (xt : Vec Ideal S1x512x128 .f32) (ab : Vec Ideal S1x2048x512 .i32)
    (mp lp : Vec Ideal S2048x1 .f32) (n : Fin 2048) :
    k0_pay15 (F := Ideal) xw xt ab mp lp (ix2 n 0) = stepDen (mp (ix2 n 0)) (lp (ix2 n 0)) (blkScore xw xt ab n) := by
  unfold k0_pay15 stepDen
  show k0_pay12 (F := Ideal) xw xt ab mp (ix2 n 0) * lp (ix2 n 0) + _ = _
  rw [pay12_apply]
  congr 1
  refine (rowSum_apply _ n).trans ?_
  exact Finset.sum_congr rfl fun j' _ => pay13_apply xw xt ab mp n j'

/-- The new running numerator of row `n`, feature `f`. -/
theorem pay2_apply (xw : Vec Ideal S2048x128 .f32) (xt : Vec Ideal S1x512x128 .f32) (ab : Vec Ideal S1x2048x512 .i32)
    (mp : Vec Ideal S2048x1 .f32) (ap : Vec Ideal S2048x128 .f32) (n : Fin 2048) (f : Fin 128) :
    k0_pay2 (F := Ideal) (k0_pay9 xt) (k0_pay12 xw xt ab mp) (k0_pay14 xw xt ab mp) ap (ix2 n f)
      = stepNum (mp (ix2 n 0)) (ap (ix2 n f)) (blkScore xw xt ab n) (fun j' => xt (ix3 0 j' f)) := by
  unfold k0_pay2 stepNum
  rw [shapeCast_self]
  show broadcastTo S2048x128 (k0_pay12 (F := Ideal) xw xt ab mp) broadcasts_S2048x1_S2048x128 (ix2 n f) * ap (ix2 n f) + _ = _
  rw [broadcastTo_a1_ab_apply, pay12_apply]
  congr 1
  refine (matmul_val_apply _ _ n f).trans ?_
  exact Finset.sum_congr rfl fun j' _ => by rw [pay14_apply, pay9_apply]

/-- The exponential linear unit as the kernel spells it, a select on a comparison with the zero splat, at an index. -/
theorem elu_vec_apply (v : FVec Ideal S2048x128 .f32) (i : S2048x128.Idx) :
    select (cmpf .ogt v (broadcast S2048x128 (Scalar.ofBits (F := Ideal) .f32 0x00000000#32))) v
        (subf (exp v) (broadcast S2048x128 (Scalar.ofBits (F := Ideal) .f32 0x3F800000#32))) i = elu (v i) := by
  show Scalar.select (Ideal.cmp .ogt (v i) (Ideal.ofBits .f32 0x00000000#32)) (v i)
    (Ideal.exp (v i) - Ideal.ofBits .f32 0x3F800000#32) = _
  rw [ofBits_zero, ofBits_one]
  rfl

/-- The result stored at a batch's last point: the normalised numerator plus the bias, through the exponential
    linear unit. -/
theorem pay4_apply (acc : Vec Ideal S2048x128 .f32) (l : Vec Ideal S2048x1 .f32) (bias : Vec Ideal S1x128 .f32)
    (n : Fin 2048) (f : Fin 128) :
    k0_pay4 (F := Ideal) acc l bias (ix3 0 n f) = elu (Ideal.div (acc (ix2 n f)) (l (ix2 n 0)) + bias (ix2 0 f)) := by
  unfold k0_pay4
  refine (shapeCast_ab_1ab_apply _ _ 0 n f).trans ?_
  refine (elu_vec_apply _ _).trans ?_
  refine congrArg elu ?_
  rw [addf_apply, divf_apply, broadcastTo_a1_ab_apply, broadcastTo_1b_ab_apply]

end Cert.KernelIdeal.KV

end
-- ==== Proof.Online.lean ====
/-
  The running (tile by tile) softmax-weighted sum equals the plain one, for real scores and real values.
-/
import proofs.«409511_j249108103458_3_alg».proof.Proof.Spec
import proofs.«409511_j249108103458_3_alg».proof.Proof.Consts

noncomputable section

open scoped BigOperators

namespace Cert.Spec

open Idealize.ShloMosaic Idealize.ShloMosaic.ValueIdx

namespace Online

/-! ## Real tiles: the running quantities stay real -/

/-- The coercion of the reals into the extended reals commutes with finite sums. -/
theorem coe_sum {α : Type} (s : Finset α) (f : α → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The largest of finitely many real scores, over a nonempty index, is one of them: a real. -/
theorem fold_max_coe {ι : Type} [Fintype ι] [Nonempty ι] (er : ι → ℝ) :
    ∃ m : ℝ, (Finset.univ : Finset ι).fold max ⊥ (fun j => ((er j : ℝ) : EReal)) = (m : EReal) := by
  obtain ⟨i, -, hi⟩ := Finset.exists_mem_eq_sup (Finset.univ : Finset ι) Finset.univ_nonempty
    (fun j => ((er j : ℝ) : EReal))
  exact ⟨er i, hi⟩

/-- The running maximum over real tiles is real after every tile. -/
theorem onMax_real {ι : Type} [Fintype ι] [Nonempty ι] (er : ℕ → ι → ℝ) (k : ℕ) :
    ∃ m : ℝ, onMax (fun k j => ((er k j : ℝ) : EReal)) k = (m : EReal) := by
  induction k with
  | zero =>
    obtain ⟨m, hm⟩ := fold_max_coe (er 0)
    refine ⟨m, ?_⟩
    simp only [onMax, stepMax]
    rw [hm]; exact max_bot_left _
  | succ k ih =>
    obtain ⟨m, hm⟩ := ih
    obtain ⟨m', hm'⟩ := fold_max_coe (er (k + 1))
    refine ⟨max m m', ?_⟩
    simp only [onMax, stepMax]
    rw [hm, hm']
    exact (EReal.coe_strictMono.monotone.map_max).symm

/-- Real tiles `er`, `vr` whose running maximum after tile `k` is the real `rM k`: the running denominator is the
    sum of `exp (er − rM k)` over the tiles so far, and the running numerator that sum weighted by the values. -/
theorem running_real {ι : Type} [Fintype ι] (er vr : ℕ → ι → ℝ) (rM : ℕ → ℝ)
    (hM : ∀ k, onMax (fun k j => ((er k j : ℝ) : EReal)) k = (rM k : EReal)) (k : ℕ) :
    onDen (fun k j => ((er k j : ℝ) : EReal)) k
        = ((∑ k' ∈ Finset.range (k + 1), ∑ j : ι, Real.exp (er k' j - rM k) : ℝ) : EReal)
    ∧ onNum (fun k j => ((er k j : ℝ) : EReal)) (fun k j => ((vr k j : ℝ) : EReal)) k
        = ((∑ k' ∈ Finset.range (k + 1), ∑ j : ι, Real.exp (er k' j - rM k) * vr k' j : ℝ) : EReal) := by
  induction k with
  | zero =>
    have h0 := hM 0
    simp only [onMax] at h0
    constructor
    · simp only [onDen, stepDen, h0, mul_zero, zero_add, Finset.range_one, Finset.sum_singleton, coe_sum]
      refine Finset.sum_congr rfl fun j _ => ?_
      rw [← EReal.coe_sub, Ideal.exp_coe]
    · simp only [onNum, stepNum, h0, mul_zero, zero_add, Finset.range_one, Finset.sum_singleton, coe_sum]
      refine Finset.sum_congr rfl fun j _ => ?_
      rw [← EReal.coe_sub, Ideal.exp_coe, EReal.coe_mul]
  | succ k ih =>
    obtain ⟨ihD, ihN⟩ := ih
    have h1 := hM (k + 1)
    simp only [onMax] at h1
    rw [hM k] at h1
    constructor
    · simp only [onDen, stepDen, hM k, h1, ihD]
      simp only [← EReal.coe_sub, Ideal.exp_coe, ← EReal.coe_mul, ← coe_sum, ← EReal.coe_add]
      congr 1
      rw [Finset.sum_range_succ _ (k + 1), Finset.mul_sum]
      congr 1
      refine Finset.sum_congr rfl fun k' _ => ?_
      rw [Finset.mul_sum]
      refine Finset.sum_congr rfl fun j _ => ?_
      rw [← Real.exp_add]; congr 1; ring
    · simp only [onNum, stepNum, hM k, h1, ihN]
      simp only [← EReal.coe_sub, Ideal.exp_coe, ← EReal.coe_mul, ← coe_sum, ← EReal.coe_add]
      congr 1
      rw [Finset.sum_range_succ _ (k + 1), Finset.mul_sum]
      congr 1
      refine Finset.sum_congr rfl fun k' _ => ?_
      rw [Finset.mul_sum]
      refine Finset.sum_congr rfl fun j _ => ?_
      rw [← mul_assoc, ← Real.exp_add]; congr 2; ring

/-! ## The four tiles of 512 columns cover the 2048 columns once -/

/-- A sum over the four tiles and the 512 columns of each is the sum over all 2048 columns. -/
theorem sum_tiles (g : Fin 2048 → ℝ) :
    ∑ k ∈ Finset.range 4, ∑ j' : Fin 512, g (tileCol k j') = ∑ j : Fin 2048, g j := by
  rw [Finset.sum_range (fun k => ∑ j' : Fin 512, g (tileCol k j'))]
  rw [← Fintype.sum_prod_type' (fun (k : Fin 4) (j' : Fin 512) => g (tileCol k j'))]
  refine Fintype.sum_equiv (finProdFinEquiv : Fin 4 × Fin 512 ≃ Fin 2048) _ _ (fun p => ?_)
  congr 1
  apply Fin.ext
  simp [tileCol, finProdFinEquiv]
  omega

/-- The softmax-weighted sum does not depend on the shift taken out of the exponents. -/
theorem softmax_shift {ι : Type} [Fintype ι] [Nonempty ι] (e v : ι → ℝ) (M M' : ℝ) :
    (∑ j : ι, Real.exp (e j - M) * v j) * (1 / ∑ j : ι, Real.exp (e j - M))
      = ∑ j : ι, Real.exp (e j - M') * (1 / ∑ j' : ι, Real.exp (e j' - M')) * v j := by
  have hpos : 0 < ∑ j : ι, Real.exp (e j) := Finset.sum_pos (fun j _ => Real.exp_pos _) Finset.univ_nonempty
  have h1 : ∀ c : ℝ, ∑ j : ι, Real.exp (e j - c) = (∑ j : ι, Real.exp (e j)) / Real.exp c := by
    intro c; simp only [Real.exp_sub, Finset.sum_div]
  have h2 : ∀ c : ℝ, ∑ j : ι, Real.exp (e j - c) * v j = (∑ j : ι, Real.exp (e j) * v j) / Real.exp c := by
    intro c; simp only [Real.exp_sub, Finset.sum_div, div_mul_eq_mul_div]
  have h3 : ∑ j : ι, Real.exp (e j - M') * (1 / ∑ j' : ι, Real.exp (e j' - M')) * v j
      = (∑ j : ι, Real.exp (e j - M') * v j) * (1 / ∑ j' : ι, Real.exp (e j' - M')) := by
    rw [Finset.sum_mul]; exact Finset.sum_congr rfl fun j _ => by ring
  rw [h3, h1, h1, h2, h2]
  have := Real.exp_pos M; have := Real.exp_pos M'
  field_simp

end Online

open Online

/-- Four tiles of 512 real scores `e` and real values `v`: the running numerator over the running denominator after
    the last tile is the softmax-weighted sum of the values over all 2048 columns. -/
theorem running_eq_softmax (e v : Fin 2048 → ℝ) :
    Ideal.div (onNum (fun k j' => ((e (tileCol k j') : ℝ) : EReal)) (fun k j' => ((v (tileCol k j') : ℝ) : EReal)) 3)
        (onDen (fun k j' => ((e (tileCol k j') : ℝ) : EReal)) 3)
      = ∑ j : Fin 2048,
          Ideal.div (Ideal.exp (((e j : ℝ) : EReal) - (Finset.univ : Finset (Fin 2048)).fold max ⊥ (fun j => ((e j : ℝ) : EReal))))
            (∑ j' : Fin 2048, Ideal.exp (((e j' : ℝ) : EReal) - (Finset.univ : Finset (Fin 2048)).fold max ⊥ (fun j => ((e j : ℝ) : EReal))))
          * ((v j : ℝ) : EReal) := by
  obtain ⟨rM, hM⟩ : ∃ rM : ℕ → ℝ,
      ∀ k, onMax (fun k j' => ((e (tileCol k j') : ℝ) : EReal)) k = (rM k : EReal) :=
    ⟨fun k => (onMax_real (fun k j' => e (tileCol k j')) k).choose,
      fun k => (onMax_real (fun k j' => e (tileCol k j')) k).choose_spec⟩
  obtain ⟨hD, hN⟩ := running_real (fun k j' => e (tileCol k j')) (fun k j' => v (tileCol k j')) rM hM 3
  obtain ⟨M', hM'⟩ := fold_max_coe e
  rw [hD, hN, hM', sum_tiles (fun j => Real.exp (e j - rM 3)), sum_tiles (fun j => Real.exp (e j - rM 3) * v j)]
  have hpos : 0 < ∑ j : Fin 2048, Real.exp (e j - rM 3) :=
    Finset.sum_pos (fun j _ => Real.exp_pos _) Finset.univ_nonempty
  have hpos' : 0 < ∑ j : Fin 2048, Real.exp (e j - M') :=
    Finset.sum_pos (fun j _ => Real.exp_pos _) Finset.univ_nonempty
  simp only [← EReal.coe_sub, Ideal.exp_coe, ← coe_sum]
  rw [Ideal.div_coe hpos.ne']
  simp only [Ideal.div_coe hpos'.ne', ← EReal.coe_mul, ← coe_sum]
  rw [softmax_shift e v (rM 3) M']

namespace Online

/-! ## The layer's scores are real -/

/-- A finite sum of reals is real. -/
theorem sum_real {α : Type} [Fintype α] (f : α → EReal) (h : ∀ i, ∃ r : ℝ, f i = (r : EReal)) :
    ∃ r : ℝ, ∑ i, f i = (r : EReal) := by
  choose g hg using h
  exact ⟨∑ i, g i, by rw [coe_sum]; exact Finset.sum_congr rfl fun i _ => hg i⟩

/-- With real features and a real projection matrix every masked score is real: the similarity is a finite sum of
    products of reals, its leaky rectifier the larger of two reals, and the fill value is real. -/
theorem score_real (x : SX.Idx → EReal) (adj : SA.Idx → BitVec 32) (W : SW.Idx → EReal)
    (hx : ∀ i, ∃ r : ℝ, x i = (r : EReal)) (hW : ∀ i, ∃ r : ℝ, W i = (r : EReal))
    (b : Fin 16) (n j : Fin 2048) : ∃ r : ℝ, score x adj W b n j = (r : EReal) := by
  have hproj : ∀ g, ∃ r : ℝ, proj x W b n g = (r : EReal) := fun g => sum_real _ fun f => by
    obtain ⟨a, ha⟩ := hx (ix3 b n f); obtain ⟨c, hc⟩ := hW (ix2 f g)
    exact ⟨a * c, by rw [ha, hc, EReal.coe_mul]⟩
  have hsim : ∃ r : ℝ, sim x W b n j = (r : EReal) := sum_real _ fun g => by
    obtain ⟨a, ha⟩ := hproj g; obtain ⟨c, hc⟩ := hx (ix3 b j g)
    exact ⟨a * c, by rw [ha, hc, EReal.coe_mul]⟩
  obtain ⟨s, hs⟩ := hsim
  obtain ⟨c, hc, -, -⟩ := slope_real
  obtain ⟨fl, hfl⟩ := fill_real
  unfold score Scalar.select
  split_ifs
  · refine ⟨max s (c * s), ?_⟩
    rw [leaky, hs, hc, ← EReal.coe_mul]
    exact (EReal.coe_strictMono.monotone.map_max).symm
  · exact ⟨fl, hfl⟩

end Online

/-- For the layer: with real features and a real projection matrix every score is real, so the running form over
    the four key tiles of row `(b, n)` is the attended feature `f`. -/
theorem attend_running (x : SX.Idx → EReal) (adj : SA.Idx → BitVec 32) (W : SW.Idx → EReal)
    (hx : ∀ i, ∃ r : ℝ, x i = (r : EReal)) (hW : ∀ i, ∃ r : ℝ, W i = (r : EReal))
    (b : Fin 16) (n : Fin 2048) (f : Fin 128) :
    Ideal.div (onNum (tileScore x adj W b n) (tileVal x b f) 3) (onDen (tileScore x adj W b n) 3)
      = ∑ j : Fin 2048, Ideal.div (wgt x adj W b n j) (den x adj W b n) * x (ix3 b j f) := by
  choose e he using score_real x adj W hx hW b n
  choose v hv using fun j => hx (ix3 b j f)
  have hts : tileScore x adj W b n = fun k j' => ((e (tileCol k j') : ℝ) : EReal) := by
    funext k j'; exact he _
  have htv : tileVal x b f = fun k j' => ((v (tileCol k j') : ℝ) : EReal) := by
    funext k j'; exact hv _
  have hrm : rowMax x adj W b n
      = (Finset.univ : Finset (Fin 2048)).fold max ⊥ (fun j => ((e j : ℝ) : EReal)) := by
    unfold rowMax; congr 1; funext j; exact he j
  rw [hts, htv, running_eq_softmax e v]
  refine Finset.sum_congr rfl fun j _ => ?_
  simp only [den, wgt, hrm, he, hv]

end Cert.Spec

end
-- ==== Proof.KInv.lean ====
/-
  The carried scratch buffers after each grid point are the running softmax state of the point's batch after
  the point's key tile; at a batch's last point the output block holds the layer's result.

  A grid point `t` works on batch `t / 4` and key tile `t % 4`. Its staged feature block is the batch's 2048 × 128
  features, its staged adjacency block the batch's rows against the tile's 512 columns, its key tile the 512 feature
  rows `512 · (t % 4) …`. The body's masked scores over those blocks are the specification's scores of the tile
  (given that the projection scratch holds `x W` of the batch), so one run of the body advances the running maximum,
  denominator and numerator by one tile: by induction on the point, after point `t` they are the running state after
  tile `t % 4`. At `t % 4 = 3` the stored block is numerator / denominator + bias through the exponential linear unit,
  and the running form's quotient after the fourth tile is the softmax-weighted sum (real features and weights).
-/
import proofs.«409511_j249108103458_3_alg».proof.Proof.Gen.KernelIdeal.Value
import proofs.«409511_j249108103458_3_alg».proof.Proof.KPieces
import proofs.«409511_j249108103458_3_alg».proof.Proof.KPay
import proofs.«409511_j249108103458_3_alg».proof.Proof.Online

set_option maxRecDepth 16384

noncomputable section

open scoped BigOperators
open Idealize.ShloMosaic Idealize.ShloMosaic.TcCoe Idealize.SL.Sem
open Idealize.ShloMosaic.Pipeline (Dat)

namespace Cert.KernelIdeal.KV

open Cert.KernelIdeal Cert.KernelIdeal.Gen Cert.Spec Idealize.ShloMosaic.ValueIdx

variable (m : (ℓ : Loc nD τ sig) → Buf (Elt Ideal) ℓ)

/-- The four argument arrays on core `c`: features, adjacency, projection matrix, bias row. -/
abbrev aX (c : Dev nD) : SX.Idx → EReal := m ((c : Thread nD τ).loc main_arg0)
abbrev aA (c : Dev nD) : SA.Idx → BitVec 32 := m ((c : Thread nD τ).loc main_arg1)
abbrev aW (c : Dev nD) : SW.Idx → EReal := m ((c : Thread nD τ).loc main_arg2)
abbrev aB (c : Dev nD) : SB.Idx → EReal := m ((c : Thread nD τ).loc main_arg3)

/-- A point's four staged input blocks, at their literal shapes. -/
abbrev blkX (c : Dev nD) (t : Fin cfg0.N) : Vec Ideal S1x2048x128 .f32 := iblk m c 0 t
abbrev blkA (c : Dev nD) (t : Fin cfg0.N) : Vec Ideal S1x2048x512 .i32 := iblk m c 1 t
abbrev blkW (c : Dev nD) (t : Fin cfg0.N) : Vec Ideal S128x128 .f32 := iblk m c 2 t
abbrev blkB (c : Dev nD) (t : Fin cfg0.N) : Vec Ideal S1x128 .f32 := iblk m c 3 t

/-- The batch grid point `n` works on. -/
def bOf (n : ℕ) : Fin 16 := ⟨(n / 4) % 16, Nat.mod_lt _ (by norm_num)⟩

/-- The windows' block indices and the key tile's row offset at every grid point, decided over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = 0 ∧ win0_4.index t (2 : Fin 3) = 0
    ∧ k0_off1 (grid0.coords t) (0 : Fin 3) = 0 ∧ k0_off1 (grid0.coords t) (1 : Fin 3) = 512 * (t.val % 4) ∧ k0_off1 (grid0.coords t) (2 : Fin 3) = 0 :=
  (by decide +kernel : ∀ t : Fin grid0.N, _)

/-! ## The staged blocks, read off the argument arrays -/

theorem blkX_read (c : Dev nD) (t : Fin cfg0.N) (y : S1x2048x128.Idx) :
    blkX m c t y = aX m c (ix3 (bOf t.val) (y 1) (y 2)) := by
  have hN : t.val < 64 := lt_of_lt_of_eq t.isLt (show cfg0.N = 64 from N_0)
  obtain ⟨e0, e1, e2, -⟩ := idx_facts t
  have h0 : (y 0).val < 1 := (y 0).isLt
  unfold blkX iblk
  rw [View.read_apply]
  show V m c main_arg0 _ = m ((c : Thread nD τ).loc main_arg0) _
  unfold V
  congr 1
  funext a
  apply Fin.ext
  match a with
  | ⟨0, _⟩ => show win0_0.index t (0 : Fin 3) * 1 + 1 * (y 0).val = (t.val / 4) % 16; omega
  | ⟨1, _⟩ => show win0_0.index t (1 : Fin 3) * 2048 + 1 * (y 1).val = (y 1).val; omega
  | ⟨2, _⟩ => show win0_0.index t (2 : Fin 3) * 128 + 1 * (y 2).val = (y 2).val; omega

theorem blkA_read (c : Dev nD) (t : Fin cfg0.N) (y : S1x2048x512.Idx) :
    blkA m c t y = aA m c (ix3 (bOf t.val) (y 1) (tileCol (t.val % 4) (y 2))) := by
  have hN : t.val < 64 := lt_of_lt_of_eq t.isLt (show cfg0.N = 64 from N_0)
  obtain ⟨-, -, -, e0, e1, e2, -⟩ := idx_facts t
  have h0 : (y 0).val < 1 := (y 0).isLt
  have h2 : (y 2).val < 512 := (y 2).isLt
  unfold blkA iblk
  rw [View.read_apply]
  show V m c main_arg1 _ = m ((c : Thread nD τ).loc main_arg1) _
  unfold V
  congr 1
  funext a
  apply Fin.ext
  match a with
  | ⟨0, _⟩ => show win0_1.index t (0 : Fin 3) * 1 + 1 * (y 0).val = (t.val / 4) % 16; omega
  | ⟨1, _⟩ => show win0_1.index t (1 : Fin 3) * 2048 + 1 * (y 1).val = (y 1).val; omega
  | ⟨2, _⟩ => show win0_1.index t (2 : Fin 3) * 512 + 1 * (y 2).val = (512 * (t.val % 4) + (y 2).val) % 2048; omega

theorem blkW_read (c : Dev nD) (t : Fin cfg0.N) (y : S128x128.Idx) : blkW m c t y = aW m c y := by
  obtain ⟨-, -, -, -, -, -, e0, e1, -⟩ := idx_facts t
  unfold blkW iblk
  rw [View.read_apply]
  show V m c main_arg2 _ = m ((c : Thread nD τ).loc main_arg2) _
  unfold V
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blkB_read (c : Dev nD) (t : Fin cfg0.N) (y : S1x128.Idx) : blkB m c t y = aB m c y := by
  obtain ⟨-, -, -, -, -, -, -, -, e0, e1, -⟩ := idx_facts t
  unfold blkB iblk
  rw [View.read_apply]
  show V m c main_arg3 _ = m ((c : Thread nD τ).loc main_arg3) _
  unfold V
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The key tile of point `t`: feature rows `512 · (t % 4) + j'` of the batch. -/
theorem keyTile_point (c : Dev nD) (t : Fin cfg0.N) (y : S1x512x128.Idx) :
    keyTile (grid0.coords t) (blkX m c t) y = aX m c (ix3 (bOf t.val) (tileCol (t.val % 4) (y 1)) (y 2)) := by
  obtain ⟨-, -, -, -, -, -, -, -, -, -, -, -, -, e0, e1, e2⟩ := idx_facts t
  have h1 : (y 1).val < 512 := (y 1).isLt
  show blkX m c t ((Rect.unit (s := S1x2048x128) (k0_off1 (grid0.coords t)) S1x512x128.size (k0_off1_inb (grid0.coords t))).idx y) = _
  rw [blkX_read]
  congr 1
  funext a
  apply Fin.ext
  match a with
  | ⟨0, _⟩ => rfl
  | ⟨1, _⟩ => show k0_off1 (grid0.coords t) (1 : Fin 3) + 1 * (y 1).val = (512 * (t.val % 4) + (y 1).val) % 2048; omega
  | ⟨2, _⟩ => show k0_off1 (grid0.coords t) (2 : Fin 3) + 1 * (y 2).val = (y 2).val; omega

/-! ## The body's scores over the staged blocks are the specification's scores of the tile -/

theorem blkScore_point (c : Dev nD) (t : Fin cfg0.N) (xw : Vec Ideal S2048x128 .f32)
    (hxw : ∀ (r : Fin 2048) (g : Fin 128), xw (ix2 r g) = proj (aX m c) (aW m c) (bOf t.val) r g) (r : Fin 2048) :
    blkScore xw (keyTile (grid0.coords t) (blkX m c t)) (blkA m c t) r = tileScore (aX m c) (aA m c) (aW m c) (bOf t.val) r (t.val % 4) := by
  funext j'
  unfold blkScore blkSim
  show _ = score (aX m c) (aA m c) (aW m c) (bOf t.val) r (tileCol (t.val % 4) j')
  unfold score sim
  rw [blkA_read]
  simp only [keyTile_point, hxw]

theorem tileVal_point (c : Dev nD) (t : Fin cfg0.N) (f : Fin 128) :
    (fun j' : Fin 512 => (keyTile (grid0.coords t) (blkX m c t)) (ix3 0 j' f)) = tileVal (aX m c) (bOf t.val) f (t.val % 4) := by
  funext j'
  rw [keyTile_point]
  rfl

/-- The projection a batch's first point stores is `x W` of the batch. -/
theorem proj_point (c : Dev nD) (t : Fin cfg0.N) (r : Fin 2048) (g : Fin 128) :
    k0_pay5 (F := Ideal) (blkX m c t) (blkW m c t) (ix2 r g) = proj (aX m c) (aW m c) (bOf t.val) r g := by
  rw [pay5_apply]
  unfold proj
  simp only [blkX_read, blkW_read]

/-- One run of the body's update at point `t`, over whatever the accumulators held (`mp`, `lp`, `ap`) and a projection
    scratch `xw` holding `x W` of the batch: one step of the running form over the point's tile. -/
theorem step_point (c : Dev nD) (t : Fin cfg0.N) (mp lp : Vec Ideal S2048x1 .f32) (ap xw : Vec Ideal S2048x128 .f32)
    (hxw : ∀ (r : Fin 2048) (g : Fin 128), xw (ix2 r g) = proj (aX m c) (aW m c) (bOf t.val) r g) :
    (∀ r : Fin 2048, k0_pay3 (F := Ideal) (k0_pay11 xw (keyTile (grid0.coords t) (blkX m c t)) (blkA m c t) mp) (ix2 r 0)
        = stepMax (mp (ix2 r 0)) ((tileScore (aX m c) (aA m c) (aW m c) (bOf t.val) r) (t.val % 4)))
    ∧ (∀ r : Fin 2048, k0_pay1 (F := Ideal) (k0_pay15 xw (keyTile (grid0.coords t) (blkX m c t)) (blkA m c t) mp lp) (ix2 r 0)
        = stepDen (mp (ix2 r 0)) (lp (ix2 r 0)) ((tileScore (aX m c) (aA m c) (aW m c) (bOf t.val) r) (t.val % 4)))
    ∧ (∀ (r : Fin 2048) (f : Fin 128),
        k0_pay2 (F := Ideal) (k0_pay9 (keyTile (grid0.coords t) (blkX m c t))) (k0_pay12 xw (keyTile (grid0.coords t) (blkX m c t)) (blkA m c t) mp) (k0_pay14 xw (keyTile (grid0.coords t) (blkX m c t)) (blkA m c t) mp) ap (ix2 r f)
        = stepNum (mp (ix2 r 0)) (ap (ix2 r f)) ((tileScore (aX m c) (aA m c) (aW m c) (bOf t.val) r) (t.val % 4)) ((tileVal (aX m c) (bOf t.val) f) (t.val % 4))) := by
  refine ⟨fun r => ?_, fun r => ?_, fun r f => ?_⟩
  · rw [pay3_eq, pay11_apply, blkScore_point m c t xw hxw r]
  · rw [pay1_eq, pay15_apply, blkScore_point m c t xw hxw r]
  · rw [pay2_apply, blkScore_point m c t xw hxw r, tileVal_point m c t f]

/-! ## The invariant -/

/-- After grid point `n`: the maximum, denominator and numerator scratch hold the running state of batch `n / 4` after
    key tile `n % 4`, and the projection scratch holds the batch's `x W`. -/
def Inv (c : Dev nD) (n : ℕ) (h : n < cfg0.N) : Prop :=
  (∀ r : Fin 2048, (outsAt0 m c n h).2.1 (ix2 r 0) = onMax (tileScore (aX m c) (aA m c) (aW m c) (bOf n) r) (n % 4))
  ∧ (∀ r : Fin 2048, (outsAt0 m c n h).2.2.1 (ix2 r 0) = onDen (tileScore (aX m c) (aA m c) (aW m c) (bOf n) r) (n % 4))
  ∧ (∀ (r : Fin 2048) (f : Fin 128), (outsAt0 m c n h).2.2.2.1 (ix2 r f) = onNum (tileScore (aX m c) (aA m c) (aW m c) (bOf n) r) (tileVal (aX m c) (bOf n) f) (n % 4))
  ∧ (∀ (r : Fin 2048) (g : Fin 128), (outsAt0 m c n h).2.2.2.2 (ix2 r g) = proj (aX m c) (aW m c) (bOf n) r g)

theorem bOf_pred {n : ℕ} (h0 : ¬n % 4 = 0) : bOf (n - 1) = bOf n := by
  unfold bOf; apply Fin.ext; show ((n - 1) / 4) % 16 = (n / 4) % 16; omega

theorem inv (c : Dev nD) : ∀ (n : ℕ) (h : n < cfg0.N), Inv m c n h := by
  intro n
  induction n using Nat.strong_induction_on with
  | _ n ih =>
    intro h
    have hN : n < 64 := lt_of_lt_of_eq h (show cfg0.N = 64 from N_0)
    by_cases h0 : n % 4 = 0
    · -- a batch's first point: everything reset, then one update from (−∞, 0, 0)
      have h1 : ¬n % 4 = 3 := by omega
      have hc0 : cond0_0 (grid0.coords (⟨n, h⟩ : Fin cfg0.N)) := (hcond0_0 ⟨n, h⟩).mpr h0
      have hc1 : ¬cond0_1 (grid0.coords (⟨n, h⟩ : Fin cfg0.N)) := fun hh => h1 ((hcond0_1 ⟨n, h⟩).mp hh)
      have hxw := proj_point m c ⟨n, h⟩
      have hs := step_point m c ⟨n, h⟩ (k0_pay6 (F := Ideal)) (k0_pay7 (F := Ideal)) (k0_pay8 (F := Ideal))
        (k0_pay5 (F := Ideal) (blkX m c ⟨n, h⟩) (blkW m c ⟨n, h⟩)) hxw
      unfold Inv
      rw [outsAt0_A m c ⟨n, h⟩ h0 h1]
      dsimp only
      refine ⟨fun r => ?_, fun r => ?_, fun r f => ?_, fun r g => ?_⟩
      · refine (congrFun (piece_A_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) hc0 hc1) (ix2 r 0)).trans ?_
        refine (hs.1 r).trans ?_
        rw [pay6_apply]
        show stepMax ⊥ ((tileScore (aX m c) (aA m c) (aW m c) (bOf n) r) (n % 4)) = onMax (tileScore (aX m c) (aA m c) (aW m c) (bOf n) r) (n % 4)
        rw [h0]; rfl
      · refine (congrFun (piece_A_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) hc0 hc1) (ix2 r 0)).trans ?_
        refine (hs.2.1 r).trans ?_
        rw [pay6_apply, pay7_apply]
        show stepDen ⊥ 0 ((tileScore (aX m c) (aA m c) (aW m c) (bOf n) r) (n % 4)) = onDen (tileScore (aX m c) (aA m c) (aW m c) (bOf n) r) (n % 4)
        rw [h0]; rfl
      · refine (congrFun (piece_A_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) hc0 hc1) (ix2 r f)).trans ?_
        refine (hs.2.2 r f).trans ?_
        rw [pay6_apply, pay8_apply]
        show stepNum ⊥ 0 ((tileScore (aX m c) (aA m c) (aW m c) (bOf n) r) (n % 4)) ((tileVal (aX m c) (bOf n) f) (n % 4)) = onNum (tileScore (aX m c) (aA m c) (aW m c) (bOf n) r) (tileVal (aX m c) (bOf n) f) (n % 4)
        rw [h0]; rfl
      · refine (congrFun (piece_A_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) hc0 hc1) (ix2 r g)).trans ?_
        exact hxw r g
    · -- a later point of the batch: one update over what the point before left
      have hp : n - 1 < cfg0.N := Nat.lt_of_le_of_lt (Nat.sub_le _ _) h
      have ihp := ih (n - 1) (by omega) hp
      unfold Inv at ihp
      have hb : bOf (n - 1) = bOf n := bOf_pred h0
      have hk : n % 4 = (n - 1) % 4 + 1 := by omega
      rw [hb] at ihp
      obtain ⟨iM, iL, iA, iP⟩ := ihp
      have hc0 : ¬cond0_0 (grid0.coords (⟨n, h⟩ : Fin cfg0.N)) := fun hh => h0 ((hcond0_0 ⟨n, h⟩).mp hh)
      have hs := step_point m c ⟨n, h⟩ (outsAt0 m c (n - 1) hp).2.1 (outsAt0 m c (n - 1) hp).2.2.1
        (outsAt0 m c (n - 1) hp).2.2.2.1 (outsAt0 m c (n - 1) hp).2.2.2.2 iP
      by_cases h1 : n % 4 = 3
      · have hc1 : cond0_1 (grid0.coords (⟨n, h⟩ : Fin cfg0.N)) := (hcond0_1 ⟨n, h⟩).mpr h1
        unfold Inv
        rw [outsAt0_C m c ⟨n, h⟩ h0 h1]
        dsimp only
        refine ⟨fun r => ?_, fun r => ?_, fun r f => ?_, fun r g => ?_⟩
        · refine (congrFun (piece_C_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) (outsAt0 m c (n - 1) hp).2.1 (outsAt0 m c (n - 1) hp).2.2.1 (outsAt0 m c (n - 1) hp).2.2.2.1 (outsAt0 m c (n - 1) hp).2.2.2.2 hc0 hc1) (ix2 r 0)).trans ?_
          refine (hs.1 r).trans ?_
          rw [iM r]
          show stepMax (onMax (tileScore (aX m c) (aA m c) (aW m c) (bOf n) r) ((n - 1) % 4)) ((tileScore (aX m c) (aA m c) (aW m c) (bOf n) r) (n % 4)) = onMax (tileScore (aX m c) (aA m c) (aW m c) (bOf n) r) (n % 4)
          rw [hk]; rfl
        · refine (congrFun (piece_C_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) (outsAt0 m c (n - 1) hp).2.1 (outsAt0 m c (n - 1) hp).2.2.1 (outsAt0 m c (n - 1) hp).2.2.2.1 (outsAt0 m c (n - 1) hp).2.2.2.2 hc0 hc1) (ix2 r 0)).trans ?_
          refine (hs.2.1 r).trans ?_
          rw [iM r, iL r]
          show stepDen (onMax (tileScore (aX m c) (aA m c) (aW m c) (bOf n) r) ((n - 1) % 4)) (onDen (tileScore (aX m c) (aA m c) (aW m c) (bOf n) r) ((n - 1) % 4)) ((tileScore (aX m c) (aA m c) (aW m c) (bOf n) r) (n % 4)) = onDen (tileScore (aX m c) (aA m c) (aW m c) (bOf n) r) (n % 4)
          rw [hk]; rfl
        · refine (congrFun (piece_C_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) (outsAt0 m c (n - 1) hp).2.1 (outsAt0 m c (n - 1) hp).2.2.1 (outsAt0 m c (n - 1) hp).2.2.2.1 (outsAt0 m c (n - 1) hp).2.2.2.2 hc0 hc1) (ix2 r f)).trans ?_
          refine (hs.2.2 r f).trans ?_
          rw [iM r, iA r f]
          show stepNum (onMax (tileScore (aX m c) (aA m c) (aW m c) (bOf n) r) ((n - 1) % 4)) (onNum (tileScore (aX m c) (aA m c) (aW m c) (bOf n) r) (tileVal (aX m c) (bOf n) f) ((n - 1) % 4)) ((tileScore (aX m c) (aA m c) (aW m c) (bOf n) r) (n % 4)) ((tileVal (aX m c) (bOf n) f) (n % 4)) = onNum (tileScore (aX m c) (aA m c) (aW m c) (bOf n) r) (tileVal (aX m c) (bOf n) f) (n % 4)
          rw [hk]; rfl
        · exact iP r g
      · have hc1 : ¬cond0_1 (grid0.coords (⟨n, h⟩ : Fin cfg0.N)) := fun hh => h1 ((hcond0_1 ⟨n, h⟩).mp hh)
        unfold Inv
        rw [outsAt0_B m c ⟨n, h⟩ h0 h1]
        dsimp only
        refine ⟨fun r => ?_, fun r => ?_, fun r f => ?_, fun r g => ?_⟩
        · refine (congrFun (piece_B_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) (outsAt0 m c (n - 1) hp).2.1 (outsAt0 m c (n - 1) hp).2.2.1 (outsAt0 m c (n - 1) hp).2.2.2.1 (outsAt0 m c (n - 1) hp).2.2.2.2 hc0 hc1) (ix2 r 0)).trans ?_
          refine (hs.1 r).trans ?_
          rw [iM r]
          show stepMax (onMax (tileScore (aX m c) (aA m c) (aW m c) (bOf n) r) ((n - 1) % 4)) ((tileScore (aX m c) (aA m c) (aW m c) (bOf n) r) (n % 4)) = onMax (tileScore (aX m c) (aA m c) (aW m c) (bOf n) r) (n % 4)
          rw [hk]; rfl
        · refine (congrFun (piece_B_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) (outsAt0 m c (n - 1) hp).2.1 (outsAt0 m c (n - 1) hp).2.2.1 (outsAt0 m c (n - 1) hp).2.2.2.1 (outsAt0 m c (n - 1) hp).2.2.2.2 hc0 hc1) (ix2 r 0)).trans ?_
          refine (hs.2.1 r).trans ?_
          rw [iM r, iL r]
          show stepDen (onMax (tileScore (aX m c) (aA m c) (aW m c) (bOf n) r) ((n - 1) % 4)) (onDen (tileScore (aX m c) (aA m c) (aW m c) (bOf n) r) ((n - 1) % 4)) ((tileScore (aX m c) (aA m c) (aW m c) (bOf n) r) (n % 4)) = onDen (tileScore (aX m c) (aA m c) (aW m c) (bOf n) r) (n % 4)
          rw [hk]; rfl
        · refine (congrFun (piece_B_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) (blkX m c (⟨n, h⟩ : Fin cfg0.N)) (blkA m c (⟨n, h⟩ : Fin cfg0.N)) (blkW m c (⟨n, h⟩ : Fin cfg0.N)) (blkB m c (⟨n, h⟩ : Fin cfg0.N)) (outsAt0 m c (n - 1) hp).2.1 (outsAt0 m c (n - 1) hp).2.2.1 (outsAt0 m c (n - 1) hp).2.2.2.1 (outsAt0 m c (n - 1) hp).2.2.2.2 hc0 hc1) (ix2 r f)).trans ?_
          refine (hs.2.2 r f).trans ?_
          rw [iM r, iA r f]
          show stepNum (onMax (tileScore (aX m c) (aA m c) (aW m c) (bOf n) r) ((n - 1) % 4)) (onNum (tileScore (aX m c) (aA m c) (aW m c) (bOf n) r) (tileVal (aX m c) (bOf n) f) ((n - 1) % 4)) ((tileScore (aX m c) (aA m c) (aW m c) (bOf n) r) (n % 4)) ((tileVal (aX m c) (bOf n) f) (n % 4)) = onNum (tileScore (aX m c) (aA m c) (aW m c) (bOf n) r) (tileVal (aX m c) (bOf n) f) (n % 4)
          rw [hk]; rfl
        · exact iP r g

/-! ## What a batch's last point writes back -/

/-- What a batch's last point writes back is that batch's block of the layer's result. -/
theorem flushed_eq (c : Dev nD) (hx : ∀ i, ∃ r : ℝ, aX m c i = (r : EReal)) (hW : ∀ i, ∃ r : ℝ, aW m c i = (r : EReal))
    (t : Fin cfg0.N) (hf : (cfg0.win 4).flush t = true) :
    (dats m 0 c).flushed 4 t
      = ((cfg0.win 4).blk t).view.read (Elt Ideal) (G (aX m c) (aA m c) (aW m c) (aB m c)) := by
  have hN : t.val < 64 := lt_of_lt_of_eq t.isLt (show cfg0.N = 64 from N_0)
  have h1 : t.val % 4 = 3 := (flush0_4 t).mp hf
  have h0 : ¬t.val % 4 = 0 := by omega
  have hp : t.val - 1 < cfg0.N := Nat.lt_of_le_of_lt (Nat.sub_le _ _) t.isLt
  have hc0 : ¬cond0_0 (grid0.coords t) := fun hh => h0 ((hcond0_0 t).mp hh)
  have hc1 : cond0_1 (grid0.coords t) := (hcond0_1 t).mpr h1
  obtain ⟨-, -, -, -, -, -, -, -, -, -, e0, e1, e2, -⟩ := idx_facts t
  -- the state after this point, from the invariant
  have hI := inv m c t.val t.isLt
  unfold Inv at hI
  rw [outsAt0_C m c t h0 h1] at hI
  dsimp only at hI
  obtain ⟨-, iL, iA, -⟩ := hI
  have eL : ∀ r : Fin 2048, k0_pay1 (F := Ideal) (k0_pay15 (outsAt0 m c (t.val - 1) hp).2.2.2.2 (keyTile (grid0.coords t) (blkX m c t)) (blkA m c t) (outsAt0 m c (t.val - 1) hp).2.1 (outsAt0 m c (t.val - 1) hp).2.2.1) (ix2 r 0)
      = onDen (tileScore (aX m c) (aA m c) (aW m c) (bOf t.val) r) (t.val % 4) := fun r =>
    (congrFun (piece_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (blkX m c t) (blkA m c t) (blkW m c t) (blkB m c t) (outsAt0 m c (t.val - 1) hp).2.1 (outsAt0 m c (t.val - 1) hp).2.2.1 (outsAt0 m c (t.val - 1) hp).2.2.2.1 (outsAt0 m c (t.val - 1) hp).2.2.2.2 hc0 hc1) (ix2 r 0)).symm.trans (iL r)
  have eA : ∀ (r : Fin 2048) (f : Fin 128), k0_pay2 (F := Ideal) (k0_pay9 (keyTile (grid0.coords t) (blkX m c t))) (k0_pay12 (outsAt0 m c (t.val - 1) hp).2.2.2.2 (keyTile (grid0.coords t) (blkX m c t)) (blkA m c t) (outsAt0 m c (t.val - 1) hp).2.1) (k0_pay14 (outsAt0 m c (t.val - 1) hp).2.2.2.2 (keyTile (grid0.coords t) (blkX m c t)) (blkA m c t) (outsAt0 m c (t.val - 1) hp).2.1) (outsAt0 m c (t.val - 1) hp).2.2.2.1 (ix2 r f)
      = onNum (tileScore (aX m c) (aA m c) (aW m c) (bOf t.val) r) (tileVal (aX m c) (bOf t.val) f) (t.val % 4) := fun r f =>
    (congrFun (piece_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (blkX m c t) (blkA m c t) (blkW m c t) (blkB m c t) (outsAt0 m c (t.val - 1) hp).2.1 (outsAt0 m c (t.val - 1) hp).2.2.1 (outsAt0 m c (t.val - 1) hp).2.2.2.1 (outsAt0 m c (t.val - 1) hp).2.2.2.2 hc0 hc1) (ix2 r f)).symm.trans (iA r f)
  rw [Cert.KernelIdeal.Value.flushed4_C m c t h0 h1]
  refine funext fun (j : S1x2048x128.Idx) => ?_
  have hj0 : (j 0).val < 1 := (j 0).isLt
  obtain ⟨q, s, rfl⟩ : ∃ (q : Fin 2048) (s : Fin 128), j = ix3 (0 : Fin 1) q s :=
    ⟨j 1, j 2, by
      funext a
      match a with
      | ⟨0, _⟩ => exact Fin.ext (by show (j 0).val = 0; omega)
      | ⟨1, _⟩ => rfl
      | ⟨2, _⟩ => rfl⟩
  show out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) hp).2.1 (outsAt0 m c (t.val - 1) hp).2.2.1 (outsAt0 m c (t.val - 1) hp).2.2.2.1 (outsAt0 m c (t.val - 1) hp).2.2.2.2 (ix3 (0 : Fin 1) q s)
      = G (aX m c) (aA m c) (aW m c) (aB m c) (((cfg0.win 4).blk t).view.emb (ix3 (0 : Fin 1) q s))
  refine (congrFun (piece_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (blkX m c t) (blkA m c t) (blkW m c t) (blkB m c t) (outsAt0 m c (t.val - 1) hp).2.1 (outsAt0 m c (t.val - 1) hp).2.2.1 (outsAt0 m c (t.val - 1) hp).2.2.2.1 (outsAt0 m c (t.val - 1) hp).2.2.2.2 hc0 hc1) (ix3 (0 : Fin 1) q s)).trans ?_
  have eb : (((cfg0.win 4).blk t).view.emb (ix3 (0 : Fin 1) q s)) = ix3 (bOf t.val) q s := by
    funext a
    apply Fin.ext
    match a with
    | ⟨0, _⟩ => show win0_4.index t (0 : Fin 3) * 1 + 1 * 0 = (t.val / 4) % 16; omega
    | ⟨1, _⟩ => show win0_4.index t (1 : Fin 3) * 2048 + 1 * q.val = q.val; omega
    | ⟨2, _⟩ => show win0_4.index t (2 : Fin 3) * 128 + 1 * s.val = s.val; omega
  rw [eb, pay4_apply, eL, eA, h1, blkB_read, attend_running (aX m c) (aA m c) (aW m c) hx hW (bOf t.val) q s]
  rfl

end Cert.KernelIdeal.KV

end
-- ==== Proof.KFinal.lean ====
/-
  The kernel's result array after the run is the layer's specification of the argument arrays: every index lies in the
  block some batch's last point writes back, and that block is the specification's.
-/
import proofs.«409511_j249108103458_3_alg».proof.Proof.Gen.KernelIdeal.Value
import proofs.«409511_j249108103458_3_alg».proof.Proof.KInv

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen Cert.Spec Idealize.ShloMosaic.ValueIdx

variable (m : (ℓ : Loc nD τ sig) → Buf (Elt Ideal) ℓ) (ρ : Dev nD → PrngReg)

/-- The result window's block index at point `t`: the batch `t / 4` on the first axis, block 0 on the other two. -/
theorem out_index : ∀ t : Fin cfg0.N, win0_4.index t (0 : Fin 3) = t.val / 4
    ∧ win0_4.index t (1 : Fin 3) = 0 ∧ win0_4.index t (2 : Fin 3) = 0 :=
  (by decide +kernel : ∀ t : Fin grid0.N, win0_4.index t (0 : Fin 3) = t.val / 4
    ∧ win0_4.index t (1 : Fin 3) = 0 ∧ win0_4.index t (2 : Fin 3) = 0)

/-- An index of the result array is in point `t`'s block iff each coordinate is in the block's range on its axis. -/
theorem mem_out_blk (t : Fin cfg0.N) (i : S16x2048x128.Idx) :
    i ∈ ((cfg0.win 4).blk t).view.set ↔ ∀ a : Fin 3, win0_4.index t a * S1x2048x128.size a ≤ (i a).val ∧ (i a).val < win0_4.index t a * S1x2048x128.size a + S1x2048x128.size a := by
  show i ∈ ((View.whole main_v0).slice (win0_4.rect t)).set ↔ _
  rw [View.set_slice_whole, Rect.mem_set_unit]
  exact Iff.rfl

/-- Every index of the result array is in the block of a point that writes back: batch `i₀`'s last point. -/
theorem cover (i : S16x2048x128.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  have hN : cfg0.N = 64 := N_0
  let t : Fin cfg0.N := ⟨4 * (i 0).val + 3, lt_of_lt_of_eq (by omega : 4 * (i 0).val + 3 < 64) hN.symm⟩
  have ht : t.val = 4 * (i 0).val + 3 := rfl
  obtain ⟨e0, e1, e2⟩ := out_index t
  refine ⟨t, (flush0_4 t).mpr (by omega), ?_⟩
  rw [mem_out_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 128 ≤ (i 2).val ∧ (i 2).val < win0_4.index t (2 : Fin 3) * 128 + 128; omega

/-- The result array after the run. -/
theorem final (c : Dev nD) (hx : ∀ i, ∃ r : ℝ, aX m c i = (r : EReal)) (hW : ∀ i, ∃ r : ℝ, aW m c i = (r : EReal)) :
    (dats m 0 c).arrAt 4 cfg0.N = G (aX m c) (aA m c) (aW m c) (aB m c) :=
  (dats m 0 c).arrAt_eq_of_cover 4 (G (aX m c) (aA m c) (aW m c) (aB m c))
    (fun t hf => flushed_eq m c hx hW t hf) cover

/-- The kernel's run, read: the result at the specification of the arguments, the arguments unchanged. -/
theorem run (hx : ∀ (c : Dev nD) i, ∃ r : ℝ, aX m c i = (r : EReal)) (hW : ∀ (c : Dev nD) i, ∃ r : ℝ, aW m c i = (r : EReal)) :
    θ_run (defs (F := Ideal)) (onTc (τ := τ) (main (F := Ideal))) ⟨m, fun _ => 0, ρ⟩ fun r => ∀ c : Dev nD,
      r.2.mem ((c : Thread nD τ).loc main_v0) = G (aX m c) (aA m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hx c) (hW c)), (h c).2⟩)
    (Cert.KernelIdeal.Value.run_blocks m ρ)

end Cert.KernelIdeal.KV

end
-- ==== Proof.RefRun.lean ====
/-
  The reference program's @main as a list of its host operations (the functions it calls unfolded at their call
  sites), and its run: every execution ends with the result buffer at the operations' composed term of the
  arguments.
-/
import proofs.«409511_j249108103458_3_alg».proof.Proof.Gen.ReferenceIdeal
import Idealize.ShloMosaic.Lib.StableHlo.Run
import proofs.«409511_j249108103458_3_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo

/-! ## The reference's result as one term of its four argument arrays, stage by stage (the host operations composed,
    at the ideal instance) -/

/-- `x W`: the first contraction. -/
def refProj (x : FVec Ideal S16x2048x128 .f32) (W : FVec Ideal S128x128 .f32) : FVec Ideal S16x2048x128 .f32 :=
  Host.dotGeneral (F := Ideal) dot_S16x2048x128_S128x128_S16x2048x128_2_0_01_1_n_n none x W

/-- `(x W) xᵀ`, batch by batch. -/
def refSim (x : FVec Ideal S16x2048x128 .f32) (W : FVec Ideal S128x128 .f32) : FVec Ideal S16x2048x2048 .f32 :=
  Host.dotGeneral (F := Ideal) dot_S16x2048x128_S16x2048x128_S16x2048x2048_2_2_1_1_0_0 none (refProj x W) x

/-- The leaky rectifier (as a select on the sign) and then the adjacency mask with its fill value. -/
def refScore (x : FVec Ideal S16x2048x128 .f32) (adj : IVec S16x2048x2048 32) (W : FVec Ideal S128x128 .f32) :
    FVec Ideal S16x2048x2048 .f32 :=
  select (cmpi .sgt adj (broadcastInDim S16x2048x2048 ![] bcast_S_S16x2048x2048 (constantI S_ 32 0#32)))
    (select (cmpf .ogt (refSim x W) (broadcastInDim S16x2048x2048 ![] bcast_S_S16x2048x2048 (constant (F := Ideal) S_ .f32 0x00000000#32)))
      (refSim x W)
      (mulf (broadcastInDim S16x2048x2048 ![] bcast_S_S16x2048x2048 (constant (F := Ideal) S_ .f32 0x3DCCCCCD#32)) (refSim x W)))
    (broadcastInDim S16x2048x2048 ![] bcast_S_S16x2048x2048 (id (constant (F := Ideal) S_ .f32 0xD9FFCB9E#32)))

/-- Each row's largest score. -/
def refMax (x : FVec Ideal S16x2048x128 .f32) (adj : IVec S16x2048x2048 32) (W : FVec Ideal S128x128 .f32) :
    FVec Ideal S16x2048 .f32 :=
  maximumf (broadcastInDim S16x2048 ![] bcast_S_S16x2048 (constant (F := Ideal) S_ .f32 0xFF800000#32))
    (Host.reduce (FloatOps.maximumf (F := Ideal)) (refScore x adj W) (constant (F := Ideal) S_ .f32 0xFF800000#32)
      reducesTo_S16x2048x2048_S16x2048_d2 h_S_)

/-- The unnormalised weights `exp(score − row maximum)`. -/
def refWgt (x : FVec Ideal S16x2048x128 .f32) (adj : IVec S16x2048x2048 32) (W : FVec Ideal S128x128 .f32) :
    FVec Ideal S16x2048x2048 .f32 :=
  Host.exp (F := Ideal) (subf (refScore x adj W)
    (broadcastInDim S16x2048x2048 ![0, 1, 2] bcast_S16x2048x1_S16x2048x2048_0_1_2
      (broadcastInDim S16x2048x1 ![0, 1] bcast_S16x2048_S16x2048x1_0_1 (refMax x adj W))))

/-- Each row's normaliser. -/
def refDen (x : FVec Ideal S16x2048x128 .f32) (adj : IVec S16x2048x2048 32) (W : FVec Ideal S128x128 .f32) :
    FVec Ideal S16x2048 .f32 :=
  Host.reduceAdd (F := Ideal) (refWgt x adj W) (constant (F := Ideal) S_ .f32 0x00000000#32) reducesTo_S16x2048x2048_S16x2048_d2 h_S_

/-- The attention weights. -/
def refAttn (x : FVec Ideal S16x2048x128 .f32) (adj : IVec S16x2048x2048 32) (W : FVec Ideal S128x128 .f32) :
    FVec Ideal S16x2048x2048 .f32 :=
  Host.divf (F := Ideal) (refWgt x adj W)
    (broadcastInDim S16x2048x2048 ![0, 1, 2] bcast_S16x2048x1_S16x2048x2048_0_1_2
      (broadcastInDim S16x2048x1 ![0, 1] bcast_S16x2048_S16x2048x1_0_1 (refDen x adj W)))

/-- The attended features plus the bias row. -/
def refPre (x : FVec Ideal S16x2048x128 .f32) (adj : IVec S16x2048x2048 32) (W : FVec Ideal S128x128 .f32)
    (bias : FVec Ideal S1x128 .f32) : FVec Ideal S16x2048x128 .f32 :=
  addf (Host.dotGeneral (F := Ideal) dot_S16x2048x2048_S16x2048x128_S16x2048x128_2_1_1_2_0_0 none (refAttn x adj W) x)
    (broadcastInDim S16x2048x128 ![0, 1, 2] bcast_S1x1x128_S16x2048x128_0_1_2
      (broadcastInDim S1x1x128 ![1, 2] bcast_S1x128_S1x1x128_1_2 bias))

/-- The exponential linear unit as the reference spells it: `h` where positive, else `1 · expm1` of `h` (of 0 where
    `h` is positive, a value the outer select never takes). -/
def refElu (h : FVec Ideal S16x2048x128 .f32) : FVec Ideal S16x2048x128 .f32 :=
  select (cmpf .ogt h (broadcastInDim S16x2048x128 ![] bcast_S_S16x2048x128 (constant (F := Ideal) S_ .f32 0x00000000#32))) h
    (mulf (broadcastInDim S16x2048x128 ![] bcast_S_S16x2048x128 (constant (F := Ideal) S_ .f32 0x3F800000#32))
      (Host.expm1 (F := Ideal)
        (select (cmpf .ogt h (broadcastInDim S16x2048x128 ![] bcast_S_S16x2048x128 (constant (F := Ideal) S_ .f32 0x00000000#32)))
          (broadcastInDim S16x2048x128 ![] bcast_S_S16x2048x128 (id (constant (F := Ideal) S_ .f32 0x00000000#32))) h)))

/-- The reference's result. -/
def refTerm (x : FVec Ideal S16x2048x128 .f32) (adj : IVec S16x2048x2048 32) (W : FVec Ideal S128x128 .f32)
    (bias : FVec Ideal S1x128 .f32) : FVec Ideal S16x2048x128 .f32 :=
  refElu (refPre x adj W bias)

/-! ## @main as a straight line of host operations, and its run -/

section Run

variable {F : FTy → Type} [FloatOps F]

/-- @main's forty-nine operations in order, each called function's operations at its call site over that call's
    buffers: the rectifier's select (one), the mask's select (the fill value converted to its own type, broadcast,
    the select: three), and the exponential linear unit (fifteen: two comparisons with a broadcast zero each, a
    third zero converted and broadcast for the inner select, `expm1`, the product with a broadcast one, the outer
    select). -/
abbrev ops : List (HloOp τ sig (Elt F)) :=
  [ binary main_arg0 main_arg2 main_v0 ((fun l r => Host.dotGeneral dot_S16x2048x128_S128x128_S16x2048x128_2_0_01_1_n_n none l r) : (⟨S16x2048x128, .f32⟩ : BufTy).Contents (Elt F) → (⟨S128x128, .f32⟩ : BufTy).Contents (Elt F) → (⟨S16x2048x128, .f32⟩ : BufTy).Contents (Elt F)),
    binary main_v0 main_arg0 main_v1 ((fun l r => Host.dotGeneral dot_S16x2048x128_S16x2048x128_S16x2048x2048_2_2_1_1_0_0 none l r) : (⟨S16x2048x128, .f32⟩ : BufTy).Contents (Elt F) → (⟨S16x2048x128, .f32⟩ : BufTy).Contents (Elt F) → (⟨S16x2048x2048, .f32⟩ : BufTy).Contents (Elt F)),
    nullary main_cst (constant S_ .f32 0x00000000#32),
    unary main_cst main_v2 (broadcastInDim S16x2048x2048 ![] bcast_S_S16x2048x2048 : (⟨S_, .f32⟩ : BufTy).Contents (Elt F) → (⟨S16x2048x2048, .f32⟩ : BufTy).Contents (Elt F)),
    binary main_v1 main_v2 main_v3 (cmpf .ogt : (⟨S16x2048x2048, .f32⟩ : BufTy).Contents (Elt F) → (⟨S16x2048x2048, .f32⟩ : BufTy).Contents (Elt F) → (⟨S16x2048x2048, .i1⟩ : BufTy).Contents (Elt F)),
    nullary main_cst_0 (constant S_ .f32 0x3DCCCCCD#32),
    unary main_cst_0 main_v4 (broadcastInDim S16x2048x2048 ![] bcast_S_S16x2048x2048 : (⟨S_, .f32⟩ : BufTy).Contents (Elt F) → (⟨S16x2048x2048, .f32⟩ : BufTy).Contents (Elt F)),
    binary main_v4 main_v1 main_v5 (mulf : (⟨S16x2048x2048, .f32⟩ : BufTy).Contents (Elt F) → (⟨S16x2048x2048, .f32⟩ : BufTy).Contents (Elt F) → (⟨S16x2048x2048, .f32⟩ : BufTy).Contents (Elt F)),
    TRef.ternary (.of main_v3) (.of main_v1) (.of main_v5) main_call0.v0 select,
    nullary main_c (constantI S_ 32 0#32),
    unary main_c main_v7 (broadcastInDim S16x2048x2048 ![] bcast_S_S16x2048x2048 : (⟨S_, .i32⟩ : BufTy).Contents (Elt F) → (⟨S16x2048x2048, .i32⟩ : BufTy).Contents (Elt F)),
    binary main_arg1 main_v7 main_v8 (cmpi .sgt : (⟨S16x2048x2048, .i32⟩ : BufTy).Contents (Elt F) → (⟨S16x2048x2048, .i32⟩ : BufTy).Contents (Elt F) → (⟨S16x2048x2048, .i1⟩ : BufTy).Contents (Elt F)),
    nullary main_cst_1 (constant S_ .f32 0xD9FFCB9E#32),
    TRef.unary (.of main_cst_1) main_call1.v0 id,
    TRef.unary main_call1.v0 main_call1.v1 (broadcastInDim S16x2048x2048 ![] bcast_S_S16x2048x2048),
    TRef.ternary (.of main_v8) (.of main_v6) main_call1.v1 main_call1.v2 select,
    nullary main_cst_2 (constant S_ .f32 0xFF800000#32),
    binary main_v9 main_cst_2 main_v10 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_3 (constant S_ .f32 0xFF800000#32),
    unary main_cst_3 main_v11 (broadcastInDim S16x2048 ![] bcast_S_S16x2048 : (⟨S_, .f32⟩ : BufTy).Contents (Elt F) → (⟨S16x2048, .f32⟩ : BufTy).Contents (Elt F)),
    binary main_v11 main_v10 main_v12 (maximumf : (⟨S16x2048, .f32⟩ : BufTy).Contents (Elt F) → (⟨S16x2048, .f32⟩ : BufTy).Contents (Elt F) → (⟨S16x2048, .f32⟩ : BufTy).Contents (Elt F)),
    unary main_v12 main_v13 (broadcastInDim S16x2048x1 ![0, 1] bcast_S16x2048_S16x2048x1_0_1 : (⟨S16x2048, .f32⟩ : BufTy).Contents (Elt F) → (⟨S16x2048x1, .f32⟩ : BufTy).Contents (Elt F)),
    unary main_v13 main_v14 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v9 main_v14 main_v15 (subf : (⟨S16x2048x2048, .f32⟩ : BufTy).Contents (Elt F) → (⟨S16x2048x2048, .f32⟩ : BufTy).Contents (Elt F) → (⟨S16x2048x2048, .f32⟩ : BufTy).Contents (Elt F)),
    unary main_v15 main_v16 (Host.exp : (⟨S16x2048x2048, .f32⟩ : BufTy).Contents (Elt F) → (⟨S16x2048x2048, .f32⟩ : BufTy).Contents (Elt F)),
    nullary main_cst_4 (constant S_ .f32 0x00000000#32),
    binary main_v16 main_cst_4 main_v17 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v17 main_v18 (broadcastInDim S16x2048x1 ![0, 1] bcast_S16x2048_S16x2048x1_0_1 : (⟨S16x2048, .f32⟩ : BufTy).Contents (Elt F) → (⟨S16x2048x1, .f32⟩ : BufTy).Contents (Elt F)),
    unary main_v18 main_v19 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v16 main_v19 main_v20 (Host.divf : (⟨S16x2048x2048, .f32⟩ : BufTy).Contents (Elt F) → (⟨S16x2048x2048, .f32⟩ : BufTy).Contents (Elt F) → (⟨S16x2048x2048, .f32⟩ : BufTy).Contents (Elt F)),
    binary main_v20 main_arg0 main_v21 ((fun l r => Host.dotGeneral dot_S16x2048x2048_S16x2048x128_S16x2048x128_2_1_1_2_0_0 none l r) : (⟨S16x2048x2048, .f32⟩ : BufTy).Contents (Elt F) → (⟨S16x2048x128, .f32⟩ : BufTy).Contents (Elt F) → (⟨S16x2048x128, .f32⟩ : BufTy).Contents (Elt F)),
    unary main_arg3 main_v22 (broadcastInDim S1x1x128 ![1, 2] bcast_S1x128_S1x1x128_1_2 : (⟨S1x128, .f32⟩ : BufTy).Contents (Elt F) → (⟨S1x1x128, .f32⟩ : BufTy).Contents (Elt F)),
    unary main_v22 main_v23 (broadcastInDim S16x2048x128 ![0, 1, 2] bcast_S1x1x128_S16x2048x128_0_1_2 : (⟨S1x1x128, .f32⟩ : BufTy).Contents (Elt F) → (⟨S16x2048x128, .f32⟩ : BufTy).Contents (Elt F)),
    binary main_v21 main_v23 main_v24 (addf : (⟨S16x2048x128, .f32⟩ : BufTy).Contents (Elt F) → (⟨S16x2048x128, .f32⟩ : BufTy).Contents (Elt F) → (⟨S16x2048x128, .f32⟩ : BufTy).Contents (Elt F)),
    TRef.nullary main_call2.cst (constant S_ .f32 0x00000000#32),
    TRef.unary main_call2.cst main_call2.v0 (broadcastInDim S16x2048x128 ![] bcast_S_S16x2048x128),
    TRef.binary (.of main_v24) main_call2.v0 main_call2.v1 (cmpf .ogt),
    TRef.nullary main_call2.cst_0 (constant S_ .f32 0x00000000#32),
    TRef.unary main_call2.cst_0 main_call2.v2 (broadcastInDim S16x2048x128 ![] bcast_S_S16x2048x128),
    TRef.binary (.of main_v24) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S16x2048x128 ![] bcast_S_S16x2048x128),
    TRef.ternary main_call2.v3 main_call2.call0.v1 (.of main_v24) main_call2.call0.v2 select,
    TRef.unary main_call2.call0.v2 main_call2.v5 Host.expm1,
    TRef.nullary main_call2.cst_2 (constant S_ .f32 0x3F800000#32),
    TRef.unary main_call2.cst_2 main_call2.v6 (broadcastInDim S16x2048x128 ![] bcast_S_S16x2048x128),
    TRef.binary main_call2.v6 main_call2.v5 main_call2.v7 mulf,
    TRef.ternary main_call2.v1 (.of main_v24) main_call2.v7 main_call2.call1.v0 select ]

-- forty-nine binds re-associated under the chain
set_option maxRecDepth 2048 in
/-- @main is that straight line: the called functions unfolded at their calls and the records at their fields, both
    sides are one chain of host steps once sequencing is re-associated. -/
theorem main_eq (c : Dev nD) : main (F := F) c = seq ops := by
  simp only [main, fn_where.body, fn_where_0.body, fn_where_1.body, fn_where_2.body, fn_elu.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., unary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩

end Run

set_option maxRecDepth 8192 in
/-- The fold of the operations at the result buffer is `refTerm` of the arguments' contents: each operation's result
    read at its own buffer is its function of its operands' contents and at any other buffer what was there, and the
    typed references' transports are the identity at these literal references. -/
theorem out_eq (V : Valuation τ sig (Elt Ideal)) :
    after (ops (F := Ideal)) V (main_v25 : DevRef τ sig)
      = refTerm (V (main_arg0 : DevRef τ sig)) (V (main_arg1 : DevRef τ sig)) (V (main_arg2 : DevRef τ sig))
          (V (main_arg3 : DevRef τ sig)) := by
  after_results_simp
  rfl

/-- No operation writes an argument's buffer. -/
theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp

/-- On every device, from any memory with zero counters: every weakly fair execution of the reference's @main
    terminates with the result at `refTerm` of the arguments, the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c main_v25).trans (out_eq _), (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.RefRead.lean ====
/-
  The reference's composed term, read at an index, is the layer's specification `Cert.Spec.G`.
-/
import proofs.«409511_j249108103458_3_alg».proof.Proof.RefRun
import proofs.«409511_j249108103458_3_alg».proof.Proof.Consts
import Idealize.ShloMosaic.PureOps.Ideal.Laws
import Idealize.ShloMosaic.Lib.ValueIdx
import Idealize.ShloMosaic.Lib.Pipeline.Value
import Idealize.ShloMosaic.Lib.StackMember

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx

/-- The first contraction at an index: the contracted axis is the features' last and the matrix's first. -/
theorem proj_dot_apply (x : FVec Ideal S16x2048x128 .f32) (W : FVec Ideal S128x128 .f32) (b : Fin 16) (n : Fin 2048) (g : Fin 128) :
    Host.dotGeneral (F := Ideal) dot_S16x2048x128_S128x128_S16x2048x128_2_0_01_1_n_n none x W (ix3 b n g)
      = ∑ f : Fin 128, x (ix3 b n f) * W (ix2 f g) := by
  show FloatOps.dotGeneral _ none _ x W (ix3 b n g) = _
  rw [Ideal.dotGeneral_apply,
    ← Equiv.sum_comp (contrEquiv1 dot_S16x2048x128_S128x128_S16x2048x128_2_0_01_1_n_n 128 rfl rfl).symm]
  refine Finset.sum_congr rfl fun c _ => ?_
  have c3 := contrEquiv1_symm_val dot_S16x2048x128_S128x128_S16x2048x128_2_0_01_1_n_n 128 rfl rfl c
  have l3 : dot_S16x2048x128_S128x128_S16x2048x128_2_0_01_1_n_n.lhsIdx (ix3 b n g)
      ((contrEquiv1 _ 128 rfl rfl).symm c) = ix3 b n c := by
    funext ax; apply Fin.ext
    match ax with
    | ⟨0, _⟩ => simp [DotDims.lhsIdx, dot_S16x2048x128_S128x128_S16x2048x128_2_0_01_1_n_n]; rfl
    | ⟨1, _⟩ => simp [DotDims.lhsIdx, dot_S16x2048x128_S128x128_S16x2048x128_2_0_01_1_n_n]; rfl
    | ⟨2, _⟩ => simp [DotDims.lhsIdx, dot_S16x2048x128_S128x128_S16x2048x128_2_0_01_1_n_n]; exact c3
  have r3 : dot_S16x2048x128_S128x128_S16x2048x128_2_0_01_1_n_n.rhsIdx (ix3 b n g)
      ((contrEquiv1 _ 128 rfl rfl).symm c) = ix2 c g := by
    funext ax; apply Fin.ext
    match ax with
    | ⟨0, _⟩ => simp [DotDims.rhsIdx, dot_S16x2048x128_S128x128_S16x2048x128_2_0_01_1_n_n]; exact c3
    | ⟨1, _⟩ => simp [DotDims.rhsIdx, dot_S16x2048x128_S128x128_S16x2048x128_2_0_01_1_n_n]; rfl
  rw [l3, r3]

/-- The second contraction at an index: batch by batch, both operands contracted on their last axis. -/
theorem sim_dot_apply (p x : FVec Ideal S16x2048x128 .f32) (b : Fin 16) (n j : Fin 2048) :
    Host.dotGeneral (F := Ideal) dot_S16x2048x128_S16x2048x128_S16x2048x2048_2_2_1_1_0_0 none p x (ix3 b n j)
      = ∑ g : Fin 128, p (ix3 b n g) * x (ix3 b j g) := by
  show FloatOps.dotGeneral _ none _ p x (ix3 b n j) = _
  rw [Ideal.dotGeneral_apply,
    ← Equiv.sum_comp (contrEquiv1 dot_S16x2048x128_S16x2048x128_S16x2048x2048_2_2_1_1_0_0 128 rfl rfl).symm]
  refine Finset.sum_congr rfl fun c _ => ?_
  have c3 := contrEquiv1_symm_val dot_S16x2048x128_S16x2048x128_S16x2048x2048_2_2_1_1_0_0 128 rfl rfl c
  have l3 : dot_S16x2048x128_S16x2048x128_S16x2048x2048_2_2_1_1_0_0.lhsIdx (ix3 b n j)
      ((contrEquiv1 _ 128 rfl rfl).symm c) = ix3 b n c := by
    funext ax; apply Fin.ext
    match ax with
    | ⟨0, _⟩ => simp [DotDims.lhsIdx, dot_S16x2048x128_S16x2048x128_S16x2048x2048_2_2_1_1_0_0]; rfl
    | ⟨1, _⟩ => simp [DotDims.lhsIdx, dot_S16x2048x128_S16x2048x128_S16x2048x2048_2_2_1_1_0_0]; rfl
    | ⟨2, _⟩ => simp [DotDims.lhsIdx, dot_S16x2048x128_S16x2048x128_S16x2048x2048_2_2_1_1_0_0]; exact c3
  have r3 : dot_S16x2048x128_S16x2048x128_S16x2048x2048_2_2_1_1_0_0.rhsIdx (ix3 b n j)
      ((contrEquiv1 _ 128 rfl rfl).symm c) = ix3 b j c := by
    funext ax; apply Fin.ext
    match ax with
    | ⟨0, _⟩ => simp [DotDims.rhsIdx, dot_S16x2048x128_S16x2048x128_S16x2048x2048_2_2_1_1_0_0]; rfl
    | ⟨1, _⟩ => simp [DotDims.rhsIdx, dot_S16x2048x128_S16x2048x128_S16x2048x2048_2_2_1_1_0_0]; rfl
    | ⟨2, _⟩ => simp [DotDims.rhsIdx, dot_S16x2048x128_S16x2048x128_S16x2048x2048_2_2_1_1_0_0]; exact c3
  rw [l3, r3]

/-- The third contraction at an index: a product of two stacks, matrix by matrix. -/
theorem attend_dot_apply (A : FVec Ideal S16x2048x2048 .f32) (x : FVec Ideal S16x2048x128 .f32) (b : Fin 16) (n : Fin 2048) (f : Fin 128) :
    Host.dotGeneral (F := Ideal) dot_S16x2048x2048_S16x2048x128_S16x2048x128_2_1_1_2_0_0 none A x (ix3 b n f)
      = ∑ j : Fin 2048, A (ix3 b n j) * x (ix3 b j f) :=
  StackMember.dotGeneral_stack_apply (Facts₀.dot_S16x2048x2048_S16x2048x128_S16x2048x128_2_1_1_2_0_0_wf) none A x b n f

/-! ## The layout operations at an index -/

/-- A scalar float constant spread over a shape reads as its value at every index. -/
theorem splat_apply {t : Shape} (h : S_.BroadcastsInDim t ![]) (w : BitVec 32) (j : t.Idx) :
    broadcastInDim t ![] h (constant (F := Ideal) S_ .f32 w) j = Ideal.ofBits .f32 w := rfl

/-- A per-row value spread along the key axis reads as the row's value. -/
theorem rowSpread_apply (m : FVec Ideal S16x2048 .f32) (b : Fin 16) (n j : Fin 2048) :
    broadcastInDim S16x2048x2048 ![0, 1, 2] bcast_S16x2048x1_S16x2048x2048_0_1_2
      (broadcastInDim S16x2048x1 ![0, 1] bcast_S16x2048_S16x2048x1_0_1 m) (ix3 b n j) = m (ix2 b n) :=
  (broadcastInDim_apply _ _ _ _ (ix3 b n (0 : Fin 1)) (fun a => by
      match a with
      | ⟨0, _⟩ => rfl
      | ⟨1, _⟩ => rfl
      | ⟨2, _⟩ => rfl)).trans
    (broadcastInDim_apply _ _ _ _ (ix2 b n) (fun a => by
      match a with
      | ⟨0, _⟩ => rfl
      | ⟨1, _⟩ => rfl))

/-- The bias row spread over batches and query rows reads as its entry at the feature. -/
theorem biasSpread_apply (bias : FVec Ideal S1x128 .f32) (b : Fin 16) (n : Fin 2048) (f : Fin 128) :
    broadcastInDim S16x2048x128 ![0, 1, 2] bcast_S1x1x128_S16x2048x128_0_1_2
      (broadcastInDim S1x1x128 ![1, 2] bcast_S1x128_S1x1x128_1_2 bias) (ix3 b n f) = bias (ix2 (0 : Fin 1) f) :=
  (broadcastInDim_apply _ _ _ _ (ix3 (0 : Fin 1) (0 : Fin 1) f) (fun a => by
      match a with
      | ⟨0, _⟩ => rfl
      | ⟨1, _⟩ => rfl
      | ⟨2, _⟩ => rfl)).trans
    (broadcastInDim_apply _ _ _ _ (ix2 (0 : Fin 1) f) (fun a => by
      match a with
      | ⟨0, _⟩ => rfl
      | ⟨1, _⟩ => rfl))

/-- A row's index with the key coordinate put back on the last axis. -/
theorem lift_row (h : S16x2048x2048.Reduces [2] S16x2048) (b : Fin 16) (n k : Fin 2048) :
    h.lift (ix2 b n) k = ix3 b n k := by
  funext c; apply Fin.ext
  match c with
  | ⟨0, _⟩ => rfl
  | ⟨1, _⟩ => rfl
  | ⟨2, _⟩ => rfl

/-! ## The stages -/

/-- The projected features. -/
theorem refProj_apply (x : FVec Ideal S16x2048x128 .f32) (W : FVec Ideal S128x128 .f32) (b : Fin 16) (n : Fin 2048) (g : Fin 128) :
    refProj x W (ix3 b n g) = Cert.Spec.proj x W b n g :=
  proj_dot_apply x W b n g

/-- The similarity. -/
theorem refSim_apply (x : FVec Ideal S16x2048x128 .f32) (W : FVec Ideal S128x128 .f32) (b : Fin 16) (n j : Fin 2048) :
    refSim x W (ix3 b n j) = Cert.Spec.sim x W b n j := by
  unfold refSim
  rw [sim_dot_apply]
  exact Finset.sum_congr rfl fun g _ => by rw [refProj_apply]

/-- Taking `s` where it is positive and `slope · s` elsewhere is the larger of the two at EVERY extended real, the two
    infinities included, because the slope lies strictly between 0 and 1. -/
theorem leaky_select (s : EReal) :
    Scalar.select (Ideal.cmp .ogt s 0) s (Cert.Spec.slope * s) = Cert.Spec.leaky s := by
  obtain ⟨r, hr, h0, h1⟩ := Cert.Spec.slope_real
  unfold Cert.Spec.leaky
  rw [hr]
  induction s using EReal.rec with
  | bot =>
    have hc : Ideal.cmp .ogt (⊥ : EReal) 0 = 0#1 := by simp [Ideal.cmp]
    rw [hc, select_zero, EReal.coe_mul_bot_of_pos h0, max_self]
  | top =>
    have hc : Ideal.cmp .ogt (⊤ : EReal) 0 = 1#1 := by simp [Ideal.cmp]
    rw [hc, select_one, EReal.coe_mul_top_of_pos h0, max_self]
  | coe t =>
    by_cases ht : 0 < t
    · have hc : Ideal.cmp .ogt (t : EReal) 0 = 1#1 := by simp [Ideal.cmp, ht]
      rw [hc, select_one, ← EReal.coe_mul, max_eq_left]
      exact EReal.coe_le_coe_iff.mpr (by nlinarith)
    · have hc : Ideal.cmp .ogt (t : EReal) 0 = 0#1 := by simp [Ideal.cmp, ht]
      rw [hc, select_zero, ← EReal.coe_mul, max_eq_right]
      exact EReal.coe_le_coe_iff.mpr (by nlinarith)

/-- The masked score. -/
theorem refScore_apply (x : FVec Ideal S16x2048x128 .f32) (adj : IVec S16x2048x2048 32) (W : FVec Ideal S128x128 .f32)
    (b : Fin 16) (n j : Fin 2048) : refScore x adj W (ix3 b n j) = Cert.Spec.score x adj W b n j := by
  show Scalar.select (IntOp.cmpi .sgt (adj (ix3 b n j)) 0#32)
      (Scalar.select (Ideal.cmp .ogt (refSim x W (ix3 b n j)) (Ideal.ofBits .f32 0x00000000#32)) (refSim x W (ix3 b n j))
        (Ideal.ofBits .f32 0x3DCCCCCD#32 * refSim x W (ix3 b n j)))
      (Ideal.ofBits .f32 0xD9FFCB9E#32) = _
  rw [refSim_apply, Cert.Spec.ofBits_zero]
  exact congrArg (fun v => Scalar.select (IntOp.cmpi .sgt (adj (ix3 b n j)) 0#32) v (Ideal.ofBits .f32 0xD9FFCB9E#32))
    (leaky_select _)

/-- The row maximum's term at a row: the larger of −∞ and the reduction. -/
theorem refMax_unfold (x : FVec Ideal S16x2048x128 .f32) (adj : IVec S16x2048x2048 32) (W : FVec Ideal S128x128 .f32)
    (b : Fin 16) (n : Fin 2048) :
    refMax x adj W (ix2 b n) = max (Ideal.ofBits .f32 0xFF800000#32)
      (Host.reduce (FloatOps.maximumf (F := Ideal)) (refScore x adj W) (constant (F := Ideal) S_ .f32 0xFF800000#32)
        reducesTo_S16x2048x2048_S16x2048_d2 h_S_ (ix2 b n)) := by
  unfold refMax
  rw [maximumf_apply, splat_apply]

/-- From −∞ the reduction with a maximum body over the key axis is, at a row, the largest entry of the row. -/
theorem hostMax_row (s : FVec Ideal S16x2048x2048 .f32) (b : Fin 16) (n : Fin 2048) :
    Host.reduce (FloatOps.maximumf (F := Ideal)) s (constant (F := Ideal) S_ .f32 0xFF800000#32)
        reducesTo_S16x2048x2048_S16x2048_d2 h_S_ (ix2 b n)
      = (Finset.univ : Finset (Fin 2048)).fold max ⊥ (fun k => s (ix3 b n k)) := by
  have hR : S16x2048x2048.Reduces [2] S16x2048 := by decide
  have hf : (s ∘ hR.lift (ix2 b n)) = fun k : Fin 2048 => s (ix3 b n k) :=
    funext fun k => congrArg s (lift_row hR b n k)
  rw [Host.reduce_eq_fold_single (FloatOps.maximumf (F := Ideal) (φ := .f32)) s _
      reducesTo_S16x2048x2048_S16x2048_d2 hR h_S_ (ix2 b n)]
  refine (congrArg (fun f => Finset.fold max (Ideal.ofBits .f32 0xFF800000#32) f (Finset.univ : Finset (Fin 2048))) hf).trans ?_
  rw [Cert.Spec.ofBits_neg_inf]

/-- A row's largest score. -/
theorem refMax_apply (x : FVec Ideal S16x2048x128 .f32) (adj : IVec S16x2048x2048 32) (W : FVec Ideal S128x128 .f32)
    (b : Fin 16) (n : Fin 2048) : refMax x adj W (ix2 b n) = Cert.Spec.rowMax x adj W b n := by
  rw [refMax_unfold, hostMax_row, Cert.Spec.ofBits_neg_inf, max_eq_right bot_le]
  unfold Cert.Spec.rowMax
  exact congrArg (fun f => Finset.fold max (⊥ : EReal) f (Finset.univ : Finset (Fin 2048)))
    (funext fun k => refScore_apply x adj W b n k)

/-- The unnormalised weight. -/
theorem refWgt_apply (x : FVec Ideal S16x2048x128 .f32) (adj : IVec S16x2048x2048 32) (W : FVec Ideal S128x128 .f32)
    (b : Fin 16) (n j : Fin 2048) : refWgt x adj W (ix3 b n j) = Cert.Spec.wgt x adj W b n j := by
  show Ideal.exp (refScore x adj W (ix3 b n j)
    - broadcastInDim S16x2048x2048 ![0, 1, 2] bcast_S16x2048x1_S16x2048x2048_0_1_2
        (broadcastInDim S16x2048x1 ![0, 1] bcast_S16x2048_S16x2048x1_0_1 (refMax x adj W)) (ix3 b n j)) = _
  rw [rowSpread_apply, refScore_apply, refMax_apply]
  rfl

/-- A row's normaliser. -/
theorem refDen_apply (x : FVec Ideal S16x2048x128 .f32) (adj : IVec S16x2048x2048 32) (W : FVec Ideal S128x128 .f32)
    (b : Fin 16) (n : Fin 2048) : refDen x adj W (ix2 b n) = Cert.Spec.den x adj W b n := by
  have hR : S16x2048x2048.Reduces [2] S16x2048 := by decide
  show Ideal.hostReduceAdd reducesTo_S16x2048x2048_S16x2048_d2 (refWgt x adj W) (Ideal.ofBits .f32 0x00000000#32) (ix2 b n) = _
  rw [Ideal.hostReduceAdd_single _ hR, Cert.Spec.ofBits_zero, zero_add]
  show ∑ k : Fin 2048, refWgt x adj W (hR.lift (ix2 b n) k) = _
  exact Finset.sum_congr rfl fun k _ => by rw [lift_row hR b n k, refWgt_apply]

/-- The attention weight. -/
theorem refAttn_apply (x : FVec Ideal S16x2048x128 .f32) (adj : IVec S16x2048x2048 32) (W : FVec Ideal S128x128 .f32)
    (b : Fin 16) (n j : Fin 2048) :
    refAttn x adj W (ix3 b n j) = Ideal.div (Cert.Spec.wgt x adj W b n j) (Cert.Spec.den x adj W b n) := by
  show Ideal.div (refWgt x adj W (ix3 b n j))
    (broadcastInDim S16x2048x2048 ![0, 1, 2] bcast_S16x2048x1_S16x2048x2048_0_1_2
        (broadcastInDim S16x2048x1 ![0, 1] bcast_S16x2048_S16x2048x1_0_1 (refDen x adj W)) (ix3 b n j)) = _
  rw [rowSpread_apply, refWgt_apply, refDen_apply]

/-- The attended features plus the bias. -/
theorem refPre_apply (x : FVec Ideal S16x2048x128 .f32) (adj : IVec S16x2048x2048 32) (W : FVec Ideal S128x128 .f32)
    (bias : FVec Ideal S1x128 .f32) (b : Fin 16) (n : Fin 2048) (f : Fin 128) :
    refPre x adj W bias (ix3 b n f) = Cert.Spec.pre x adj W bias b n f := by
  show Host.dotGeneral (F := Ideal) dot_S16x2048x2048_S16x2048x128_S16x2048x128_2_1_1_2_0_0 none (refAttn x adj W) x (ix3 b n f)
    + broadcastInDim S16x2048x128 ![0, 1, 2] bcast_S1x1x128_S16x2048x128_0_1_2
        (broadcastInDim S1x1x128 ![1, 2] bcast_S1x128_S1x1x128_1_2 bias) (ix3 b n f) = _
  rw [attend_dot_apply, biasSpread_apply]
  unfold Cert.Spec.pre
  refine congrArg (· + bias (ix2 (0 : Fin 1) f)) ?_
  exact Finset.sum_congr rfl fun j _ => by rw [refAttn_apply]

/-- The exponential linear unit: where `h` is positive both spellings give `h`; elsewhere the inner select passes `h`
    on and `1 · (exp h − 1)` is `exp h − 1`. -/
theorem refElu_apply (h : FVec Ideal S16x2048x128 .f32) (i : S16x2048x128.Idx) : refElu h i = Cert.Spec.elu (h i) := by
  show Scalar.select (Ideal.cmp .ogt (h i) (Ideal.ofBits .f32 0x00000000#32)) (h i)
      (Ideal.ofBits .f32 0x3F800000#32
        * (Ideal.exp (Scalar.select (Ideal.cmp .ogt (h i) (Ideal.ofBits .f32 0x00000000#32)) (Ideal.ofBits .f32 0x00000000#32) (h i)) - 1)) = _
  rw [Cert.Spec.ofBits_zero, Cert.Spec.ofBits_one, one_mul]
  unfold Cert.Spec.elu
  by_cases hc : Ideal.cmp .ogt (h i) 0 = 1#1
  · simp only [hc, select_one]
  · simp only [eq_zero_of_ne_one hc, select_zero]

/-- The reference computes the specification: index by index its composed term is `Cert.Spec.G`. -/
theorem refTerm_eq_G (x : FVec Ideal S16x2048x128 .f32) (adj : IVec S16x2048x2048 32) (W : FVec Ideal S128x128 .f32)
    (bias : FVec Ideal S1x128 .f32) : refTerm x adj W bias = Cert.Spec.G x adj W bias := by
  funext i
  obtain ⟨b, n, f, rfl⟩ : ∃ (b : Fin 16) (n : Fin 2048) (f : Fin 128), i = ix3 b n f := ⟨i 0, i 1, i 2, eq_ix3 i⟩
  show refElu (refPre x adj W bias) (ix3 b n f) = _
  rw [refElu_apply, refPre_apply]
  rfl

/-- The reference's run, with its result stated as the specification. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h c).1.trans (refTerm_eq_G _ _ _ _), (h c).2⟩) (run_term m ρ)

end Cert.ReferenceIdeal.RefValue

end
-- ==== Proof.Finite.lean ====
/-
  From the precondition (every float argument is finite) to: every entry of the feature array and of the
  projection matrix is a real number.
-/
import proofs.«409511_j249108103458_3_alg».proof.Defs
import proofs.«409511_j249108103458_3_alg».proof.Proof.Gen.Pre_finite_inputs
import Idealize.ShloMosaic.Lib.ReduceAll
import Idealize.ShloMosaic.Lib.ValueIdx

noncomputable section

open scoped BigOperators

namespace Cert.Finite

open Idealize.ShloMosaic Idealize.SL.Sem

/-- The rank-zero shape has exactly one index. -/
instance : Subsingleton Cert.Pre_finite_inputs.S_.Idx := ⟨fun a b => funext fun d => d.elim0⟩

/-- An extended real whose absolute value `max x (−x)` lies strictly below `+∞` (the value of the word
    `0x7F800000`) is a real: at `−∞` and at `+∞` the absolute value is `+∞`, which is not below itself. -/
theorem real_of_abs_lt (x : EReal)
    (h : Ideal.cmp .olt (max x (-x)) (Ideal.ofBits .f32 0x7F800000#32) = 1#1) : ∃ r : ℝ, x = (r : EReal) := by
  induction x using EReal.rec with
  | bot => simp [Ideal.cmp, Ideal.ofBits, Ideal.ieee] at h
  | top => simp [Ideal.cmp, Ideal.ofBits, Ideal.ieee] at h
  | coe r => exact ⟨r, rfl⟩

/-- Under the precondition the feature array (argument 0) and the projection matrix (argument 2) hold reals. -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal)) := by
  -- The predicate is the conjunction of three "all entries have |·| < +∞" tests; it is 1, so each conjunct is 1.
  have h0 := congrFun (h c) ValueIdx.ix0
  dsimp only [Cert.Pre_finite_inputs.fn] at h0
  obtain ⟨h02, -⟩ := IntOp.andi_eq_one.1 h0
  obtain ⟨hx, hw⟩ := IntOp.andi_eq_one.1 h02
  -- An "all" that is 1 holds at every index; at an index it says |entry| < +∞, so the entry is a real.
  exact ⟨fun i => real_of_abs_lt _ (Host.reduce_andi_all _ _ _ _ _ hx i),
    fun i => real_of_abs_lt _ (Host.reduce_andi_all _ _ _ _ _ hw i)⟩

end Cert.Finite

end
-- ==== Proof.lean ====
/-
  The certificate's claim. The tiled kernel and the plain reference both run without fault and leave their four
  argument arrays unchanged, and over the extended reals, on finite feature and projection arrays, both end with the
  same result array: the graph-attention layer `Cert.Spec.G` of the arguments — leaky-rectified, masked scores, a softmax
  over the keys, the weighted sum of the features plus the bias, then the exponential linear unit.

  From the modules: `Proof.Finite` (the precondition makes every entry of the feature array and of the projection
  matrix a real), `Proof.KFinal` (the kernel's result array is `G` of its arguments: the running maximum, denominator
  and numerator over the four key tiles close to the softmax), `Proof.RefRead` (the reference's result array is `G`
  of its arguments). The kernel's idealization rewrote no operation, so that claim is `True`.
-/
import proofs.«409511_j249108103458_3_alg».proof.Defs
import proofs.«409511_j249108103458_3_alg».proof.Proof.Gen.Kernel
import proofs.«409511_j249108103458_3_alg».proof.Proof.Gen.Kernel.Skeleton
import proofs.«409511_j249108103458_3_alg».proof.Proof.Gen.Kernel.Launch
import proofs.«409511_j249108103458_3_alg».proof.Proof.Gen.Kernel.Points
import proofs.«409511_j249108103458_3_alg».proof.Proof.Gen.Kernel.Frame
import proofs.«409511_j249108103458_3_alg».proof.Proof.Gen.KernelIdeal
import proofs.«409511_j249108103458_3_alg».proof.Proof.Gen.KernelIdeal.Skeleton
import proofs.«409511_j249108103458_3_alg».proof.Proof.Gen.KernelIdeal.Launch
import proofs.«409511_j249108103458_3_alg».proof.Proof.Gen.KernelIdeal.Points
import proofs.«409511_j249108103458_3_alg».proof.Proof.Gen.KernelIdeal.Frame
import proofs.«409511_j249108103458_3_alg».proof.Proof.Gen.ReferenceIdeal
import proofs.«409511_j249108103458_3_alg».proof.Proof.Gen.Pre_finite_inputs
import proofs.«409511_j249108103458_3_alg».proof.Proof.KFinal
import proofs.«409511_j249108103458_3_alg».proof.Proof.RefRead
import proofs.«409511_j249108103458_3_alg».proof.Proof.Finite
import Idealize.ShloMosaic.Adequacy
import Idealize.ShloMosaic.Init

noncomputable section

namespace Cert.Proof

open Idealize.ShloMosaic Idealize.SL.Sem Cert.Kernel

/-- On finite feature and projection arrays, and on arguments that agree, the kernel and the reference end with the
    same result array: the layer's specification of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KV.run m ρ (fun c => (Cert.Finite.real_args m hpre c).1)
      (fun c => (Cert.Finite.real_args m hpre c).2), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefValue.run m ρ),
  trivial,
  algebraic⟩

end Cert.Proof

end
